-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S1x1 : Shape := ⟨2, ![1, 1]⟩

abbrev nBuf : Space → Nat
  | .hbm => 62
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S1x128, .f32⟩
  | .hbm, ⟨43, _⟩ => ⟨S100000x1, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x1, .f32⟩
  | .hbm, ⟨53, _⟩ => ⟨S_, .f32⟩
  | .hbm, ⟨54, _⟩ => ⟨S100000x1, .f32⟩
  | .hbm, ⟨55, _⟩ => ⟨S1700000x1, .i32⟩
  | .hbm, ⟨56, _⟩ => ⟨S100000x1, .f32⟩
  | .hbm, ⟨57, _⟩ => ⟨S100000x1, .f32⟩
  | .hbm, ⟨58, _⟩ => ⟨S1x1, .f32⟩
  | .hbm, ⟨59, _⟩ => ⟨S100000x1, .f32⟩
  | .hbm, ⟨60, _⟩ => ⟨S100000x1, .f32⟩
  | .hbm, ⟨61, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x1, .f32⟩
  | .local _ .vmem, ⟨13, _⟩ => ⟨S5000x1, .f32⟩
  | .local _ .vmem, ⟨14, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  bcast_S_S100000x1 : S_.BroadcastsInDim S100000x1 (![] : Fin 0 → Fin S100000x1.rank)
  shapeCasts_S1_S1x1 : S1.ShapeCasts S1x1
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x1_S5000x1_1_0_0_1_n_n_wf : DotDims.WF S5000x128 S128x1 S5000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x1, .f32⟩
  | 5 => ⟨S1, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x128, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000, .i32⟩
  | 70 => ⟨S1x1600000, .i32⟩
  | 71 => ⟨S1600000, .i32⟩
  | 72 => ⟨S1700000, .i32⟩
  | 73 => ⟨S1x1600000, .i32⟩
  | 74 => ⟨S1600000, .i32⟩
  | 75 => ⟨S1700000, .i32⟩
  | 76 => ⟨S100000x1, .f32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x1, .f32⟩
  | 119 => ⟨S1700000x1, .f32⟩
  | 120 => ⟨S1700000x1, .f32⟩
  | 121 => ⟨S_, .f32⟩
  | 122 => ⟨S100000x1, .f32⟩
  | 123 => ⟨S1700000x1, .i32⟩
  | 124 => ⟨S100000x1, .f32⟩
  | 125 => ⟨S1x1, .f32⟩
  | 126 => ⟨S100000x1, .f32⟩
  | 127 => ⟨S100000x1, .f32⟩
  | _ => ⟨S100000x128, .f32⟩

abbrev hbmTy0_1 (i : Nat) : BufTy := match i % 128 with
  | 0 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KernelWalk.lean ====
/-
  Which buffers each segment of the kernel program leaves alone. The program is three stretches of host operations, the
  first kernel region, a stretch, the second kernel region, a last stretch. A stretch changes only the buffers its
  operations write; a region changes only its output array. So the edge words, the node weights and the arguments are, at
  every later boundary, what they were when the first region was entered, and the arguments are what the launch memory held.
-/
import proofs.«126473_j7997229105851_1_alg».proof.Proof.Gen.KernelIdeal.Frame
import Idealize.ShloMosaic.Lib.StableHlo.Run

set_option maxRecDepth 16384

noncomputable section

namespace Cert.KernelIdeal.KVal

open Cert.KernelIdeal Cert.KernelIdeal.Gen Idealize.ShloMosaic Idealize.ShloMosaic.TcCoe Idealize.ShloMosaic.StableHlo

variable {F : FTy → Type} [FloatOps F]
variable (m : (ℓ : Loc nD τ sig) → Buf (Elt F) ℓ) (ρ : Dev nD → PrngReg)

/-- A stretch of host operations keeps a buffer none of its operations writes. -/
macro "stretch_keeps" : tactic => `(tactic| (
  refine StableHlo.after_of_forall_not_mem _ _ (List.forall_iff_forall_mem.mp ?_)
  simp only [hostOps0, hostOps0_1, hostOps0_2, hostOps1, hostOps2, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The arguments when the first region is entered -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by stretch_keeps
    _ = W1 m ρ c (Proc.devRef .tc main_arg0) := by stretch_keeps
    _ = W0 m ρ c (Proc.devRef .tc main_arg0) := by stretch_keeps
    _ = m ((c : Thread nD τ).loc main_arg0) := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by stretch_keeps
    _ = W1 m ρ c (Proc.devRef .tc main_arg2) := by stretch_keeps
    _ = W0 m ρ c (Proc.devRef .tc main_arg2) := by stretch_keeps
    _ = m ((c : Thread nD τ).loc main_arg2) := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by stretch_keeps
    _ = W1 m ρ c (Proc.devRef .tc main_arg3) := by stretch_keeps
    _ = W0 m ρ c (Proc.devRef .tc main_arg3) := by stretch_keeps
    _ = m ((c : Thread nD τ).loc main_arg3) := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by stretch_keeps
    _ = W1 m ρ c (Proc.devRef .tc main_arg4) := by stretch_keeps
    _ = W0 m ρ c (Proc.devRef .tc main_arg4) := by stretch_keeps
    _ = m ((c : Thread nD τ).loc main_arg4) := rfl
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by stretch_keeps
    _ = W1 m ρ c (Proc.devRef .tc main_arg5) := by stretch_keeps
    _ = W0 m ρ c (Proc.devRef .tc main_arg5) := by stretch_keeps
    _ = m ((c : Thread nD τ).loc main_arg5) := rfl

/-! ## After the first region: its output is the pipeline's array, everything else as entered -/

theorem W4_v16 (c : Dev nD) : W4 m ρ c (Proc.devRef .tc main_v16) = (dat0 (V3 m ρ) c).arrAt 3 cfg0.N := W4_arr m ρ c 3
theorem W4_v3 (c : Dev nD) : W4 m ρ c (Proc.devRef .tc main_v3) = W3 m ρ c (Proc.devRef .tc main_v3) := W4_of_ne m ρ c main_v3 (by decide)
theorem W4_v6 (c : Dev nD) : W4 m ρ c (Proc.devRef .tc main_v6) = W3 m ρ c (Proc.devRef .tc main_v6) := W4_of_ne m ρ c main_v6 (by decide)
theorem W4_arg3 (c : Dev nD) : W4 m ρ c (Proc.devRef .tc main_arg3) = W3 m ρ c (Proc.devRef .tc main_arg3) := W4_of_ne m ρ c main_arg3 (by decide)
theorem W4_arg4 (c : Dev nD) : W4 m ρ c (Proc.devRef .tc main_arg4) = W3 m ρ c (Proc.devRef .tc main_arg4) := W4_of_ne m ρ c main_arg4 (by decide)
theorem W4_arg5 (c : Dev nD) : W4 m ρ c (Proc.devRef .tc main_arg5) = W3 m ρ c (Proc.devRef .tc main_arg5) := W4_of_ne m ρ c main_arg5 (by decide)
/-- The node weights are an input window of the first region: it hands them back as entered. -/
theorem W4_v15 (c : Dev nD) : W4 m ρ c (Proc.devRef .tc main_v15) = W3 m ρ c (Proc.devRef .tc main_v15) :=
  (W4_arr m ρ c 2).trans (((dat0 (V3 m ρ) c).arrAt_in 2 rfl _).trans (A_eq0 (V3 m ρ) c 2))

/-! ## When the second region is entered -/

theorem W5_v3 (c : Dev nD) : W5 m ρ c (Proc.devRef .tc main_v3) = W3 m ρ c (Proc.devRef .tc main_v3) :=
  (show W5 m ρ c (Proc.devRef .tc main_v3) = W4 m ρ c (Proc.devRef .tc main_v3) by stretch_keeps).trans (W4_v3 m ρ c)
theorem W5_v6 (c : Dev nD) : W5 m ρ c (Proc.devRef .tc main_v6) = W3 m ρ c (Proc.devRef .tc main_v6) :=
  (show W5 m ρ c (Proc.devRef .tc main_v6) = W4 m ρ c (Proc.devRef .tc main_v6) by stretch_keeps).trans (W4_v6 m ρ c)
theorem W5_v15 (c : Dev nD) : W5 m ρ c (Proc.devRef .tc main_v15) = W3 m ρ c (Proc.devRef .tc main_v15) :=
  (show W5 m ρ c (Proc.devRef .tc main_v15) = W4 m ρ c (Proc.devRef .tc main_v15) by stretch_keeps).trans (W4_v15 m ρ c)
theorem W5_arg4 (c : Dev nD) : W5 m ρ c (Proc.devRef .tc main_arg4) = m ((c : Thread nD τ).loc main_arg4) :=
  (show W5 m ρ c (Proc.devRef .tc main_arg4) = W4 m ρ c (Proc.devRef .tc main_arg4) by stretch_keeps).trans
    ((W4_arg4 m ρ c).trans (W3_arg4 m ρ c))
theorem W5_arg5 (c : Dev nD) : W5 m ρ c (Proc.devRef .tc main_arg5) = m ((c : Thread nD τ).loc main_arg5) :=
  (show W5 m ρ c (Proc.devRef .tc main_arg5) = W4 m ρ c (Proc.devRef .tc main_arg5) by stretch_keeps).trans
    ((W4_arg5 m ρ c).trans (W3_arg5 m ρ c))

/-! ## After the second region -/

theorem W6_v28 (c : Dev nD) : W6 m ρ c (Proc.devRef .tc main_v28) = (dat1 (V5 m ρ) c).arrAt 4 cfg1.N := W6_arr m ρ c 4
theorem W6_v3 (c : Dev nD) : W6 m ρ c (Proc.devRef .tc main_v3) = W3 m ρ c (Proc.devRef .tc main_v3) :=
  (W6_of_ne m ρ c main_v3 (by decide)).trans (W5_v3 m ρ c)
theorem W6_v6 (c : Dev nD) : W6 m ρ c (Proc.devRef .tc main_v6) = W3 m ρ c (Proc.devRef .tc main_v6) :=
  (W6_of_ne m ρ c main_v6 (by decide)).trans (W5_v6 m ρ c)
theorem W6_arg5 (c : Dev nD) : W6 m ρ c (Proc.devRef .tc main_arg5) = m ((c : Thread nD τ).loc main_arg5) :=
  (W6_of_ne m ρ c main_arg5 (by decide)).trans (W5_arg5 m ρ c)
/-- The node weights are an input window of the second region too. -/
theorem W6_v15 (c : Dev nD) : W6 m ρ c (Proc.devRef .tc main_v15) = W3 m ρ c (Proc.devRef .tc main_v15) :=
  ((W6_arr m ρ c 1).trans (((dat1 (V5 m ρ) c).arrAt_in 1 rfl _).trans (A_eq1 (V5 m ρ) c 1))).trans (W5_v15 m ρ c)

end Cert.KernelIdeal.KVal

end
-- ==== Proof.Spec.lean ====
/-
  A two-layer graph convolution on N = 100000 nodes with E = 1700000 directed edges (the given edges and one self loop
  per node), 128 channels in the hidden layer and one output channel, written index by index over the extended reals.

  Every edge e has a source row `sIdx e` (where a gather reads), a raw destination word `dstw e` (the row a
  scatter-add lands on is the node n with `(dstw e).toInt = n`; an edge whose word names no node lands nowhere) and a
  destination row `dIdx e` (where a gather of the destination reads). `dinv` is the node weight d^(-1/2).

  The two programs arrange one layer differently. One scales every message by the edge weight
  `dinv (sIdx e) * dinv (dIdx e)` and then sums over the edges landing on n; the other scales each node's features by
  `dinv` once before the sum and once after it. Because an edge landing on n has `dIdx e = n`, the second factor is
  constant over the sum and the two agree by distributivity, which on the extended reals needs every term finite.
-/
import Idealize.ShloMosaic.PureOps.Ideal
import Idealize.ShloMosaic.Lib.ValueIdx

noncomputable section

open scoped BigOperators

namespace Gcn

/-- Nodes, edges (with the self loops), channels. -/
abbrev NN : Nat := 100000
abbrev EE : Nat := 1700000
abbrev CC : Nat := 128

/-- A start word as the gathers see it: a negative word is first wrapped by adding N (as 32-bit words). -/
def wrapw (w : BitVec 32) : BitVec 32 :=
  Idealize.ShloMosaic.Scalar.select (Idealize.ShloMosaic.IntOp.cmpi .slt w 0#32) (Idealize.ShloMosaic.IntOp.addi w 100000#32) w

/-- The row a gather reads for the start word w: the wrapped word, read signed, clamped into [0, N - 1]. -/
def rowOf (w : BitVec 32) : Fin NN :=
  ⟨min (wrapw w).toInt.toNat (100000 - 1), by show min (wrapw w).toInt.toNat (100000 - 1) < 100000; omega⟩

/-- The edges that land on node n: those whose destination word, read signed, is n. -/
def inEdges (dstw : Fin EE → BitVec 32) (n : Fin NN) : Finset (Fin EE) :=
  Finset.univ.filter fun e : Fin EE => (dstw e).toInt = (n.val : ℤ)

section
variable (X : Fin NN → Fin CC → EReal) (W1 : Fin CC → Fin CC → EReal) (B1 : Fin CC → EReal)
  (W2 : Fin CC → EReal) (B2 : EReal) (dinv : Fin NN → EReal)
  (dstw : Fin EE → BitVec 32) (sIdx dIdx : Fin EE → Fin NN)

/-! ## Scaling the nodes: before and after each sum -/

/-- Layer 1's projected features, scaled by the node weight. -/
def h1s (r : Fin NN) (k : Fin CC) : EReal := (∑ j : Fin CC, X r j * W1 j k) * dinv r
/-- Their sum over the edges landing on n. -/
def agg1 (n : Fin NN) (k : Fin CC) : EReal := 0 + ∑ e ∈ inEdges dstw n, h1s X W1 dinv (sIdx e) k
/-- Scaled again, biased, rectified. -/
def act (n : Fin NN) (k : Fin CC) : EReal := max (agg1 X W1 dinv dstw sIdx n k * dinv n + B1 k) 0
/-- Layer 2's projection to one channel, scaled by the node weight. -/
def h2s (n : Fin NN) : EReal := (∑ k : Fin CC, act X W1 B1 dinv dstw sIdx n k * W2 k) * dinv n
/-- Its sum over the edges landing on n. -/
def agg2 (n : Fin NN) : EReal := 0 + ∑ e ∈ inEdges dstw n, h2s X W1 B1 W2 dinv dstw sIdx (sIdx e)
/-- The result at node n. -/
def K (n : Fin NN) : EReal := agg2 X W1 B1 W2 dinv dstw sIdx n * dinv n + B2

/-! ## Scaling the messages: one weight per edge -/

/-- The weight of edge e. -/
def nrm (e : Fin EE) : EReal := dinv (sIdx e) * dinv (dIdx e)
/-- Layer 1's projected features. -/
def h (r : Fin NN) (k : Fin CC) : EReal := ∑ j : Fin CC, X r j * W1 j k
/-- The weighted messages summed over the edges landing on n, biased. -/
def o1 (n : Fin NN) (k : Fin CC) : EReal :=
  (0 + ∑ e ∈ inEdges dstw n, h X W1 (sIdx e) k * nrm dinv sIdx dIdx e) + B1 k
/-- Rectified. -/
def r1 (n : Fin NN) (k : Fin CC) : EReal := max (o1 X W1 B1 dinv dstw sIdx dIdx n k) 0
/-- Layer 2's projection to one channel. -/
def h2 (n : Fin NN) : EReal := ∑ k : Fin CC, r1 X W1 B1 dinv dstw sIdx dIdx n k * W2 k
/-- The result at node n. -/
def R (n : Fin NN) : EReal :=
  (0 + ∑ e ∈ inEdges dstw n, h2 X W1 B1 W2 dinv dstw sIdx dIdx (sIdx e) * nrm dinv sIdx dIdx e) + B2

end

end Gcn

end
-- ==== Proof.LibGatherRows.lean ====
/- The gather of whole rows: operand [N, C] (or [N, A, B]), start indices [n, 1], result [n, C] (or [n, A, B]); the operand's axis 0 is collapsed and named by the one component of the index vector, the other axes are offset axes taken whole. Result row j is the operand's row at start index j, read signed and clamped into [0, N - 1]. -/
import Idealize.ShloMosaic.PureOps.Ideal
import Idealize.ShloMosaic.Lib.ValueIdx

noncomputable section

open scoped BigOperators

namespace Cert.LibGatherRows

open Idealize.ShloMosaic Idealize.ShloMosaic.ValueIdx

/-- An entry of a list read through two equations: of the lists and of the positions. -/
theorem getElem_of_eq_of_eq {β : Type} {l l' : List β} (h : l = l') {i i' : Nat} (hi : i = i') (w : i < l.length) :
    l[i] = l'[i']'(by subst h; subst hi; exact w) := by
  subst h; subst hi; rfl

/-- THE ROW GATHER READ AT (j, c), one offset axis. On axis 0 (collapsed, named by the start index map) the operand
    coordinate is the start word read signed and clamped so that a slice of size 1 fits; on axis 1 (an offset axis, not
    named by the start index map) the start is 0 and the offset coordinate is the result's coordinate. -/
theorem gather_rows2_apply {α : Type} {N n C w : Nat} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![n, 1]⟩ w) (j : Fin n) (c : Fin C) :
    Host.gather d x idx (ix2 j c)
      = x (ix2 (⟨min (idx (ix2 j (0 : Fin 1))).toInt.toNat (N - 1), by omega⟩ : Fin N) c) := by
  unfold Host.gather
  congr 1
  funext a
  apply Fin.ext
  have hb : ∀ a : Fin 2, a ∉ d.operandBatchingDims := fun a => by rw [hob]; exact List.not_mem_nil
  -- a batch axis of the result is its axis 0 (the one axis that is not an offset axis)
  have ebatch : ∀ X : Fin 2, X ∈ d.batchDims → ((ix2 j c : (⟨2, ![n, C]⟩ : Shape).Idx) X).val = j.val := by
    intro X hX
    have hX0 : X = 0 := by
      simp only [GatherDims.batchDims, Shape.kept, hoff, List.mem_filter] at hX
      have h1 : X ≠ 1 := by simpa using hX.2
      match X with
      | ⟨0, _⟩ => rfl
      | ⟨1, _⟩ => exact absurd rfl h1
    subst hX0; rfl
  -- an offset axis of the result is its axis 1
  have eoff : ∀ X : Fin 2, X ∈ d.offsetDims → ((ix2 j c : (⟨2, ![n, C]⟩ : Shape).Idx) X).val = c.val := by
    intro X hX
    have hX1 : X = 1 := by rw [hoff] at hX; exact List.mem_singleton.mp hX
    subst hX1; rfl
  match a with
  | ⟨0, _⟩ =>
    -- the collapsed axis: the clamped start, no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 j c) idx 0 + d.batchCoord (ix2 j c) 0 + d.offCoord (ix2 j c) 0
      = min (idx (ix2 j (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 j (0 : Fin 1))).toInt.toNat (N - 1)
    rw [hsl]
    congr 3
    congr 1
    funext b
    apply Fin.ext
    match b with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (0 : Fin 2) d.startIndexMap = 0
      rw [hsim]; simp
  | ⟨1, _⟩ =>
    -- an offset axis: no start (the start index map does not name it), no batching coordinate, the result's coordinate
    have hk : (1 : Fin 2) ∈ d.sKept := by rw [GatherDims.mem_sKept, hcoll, hob]; simp
    have hm : (1 : Fin 2) ∉ d.startIndexMap := by rw [hsim]; simp
    show d.start (ix2 j c) idx 1 + d.batchCoord (ix2 j c) 1 + d.offCoord (ix2 j c) 1 = c.val
    rw [GatherDims.batchCoord_eq_zero _ _ _ (hb 1)]
    unfold GatherDims.start GatherDims.offCoord
    rw [dif_neg hm, dif_pos hk]
    simp only [Nat.zero_add]
    exact eoff _ (List.getElem_mem _)

/-- The same with two offset axes: the operand's kept axes 1 and 2 are read, in order, at the result's offset axes 1
    and 2. -/
theorem gather_rows3_apply {α : Type} {N n A B w : Nat} (hN : 0 < N) (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (x : (⟨3, ![N, A, B]⟩ : Shape).Idx → α) (idx : IVec ⟨2, ![n, 1]⟩ w) (j : Fin n) (a : Fin A) (b : Fin B) :
    Host.gather d x idx (ix3 j a b)
      = x (ix3 (⟨min (idx (ix2 j (0 : Fin 1))).toInt.toNat (N - 1), by omega⟩ : Fin N) a b) := by
  unfold Host.gather
  congr 1
  funext q
  apply Fin.ext
  have hb : ∀ q : Fin 3, q ∉ d.operandBatchingDims := fun q => by rw [hob]; exact List.not_mem_nil
  -- the operand's axes that are neither collapsed nor batching: 1 and 2, in order
  have hsk : d.sKept = [1, 2] := by
    simp only [GatherDims.sKept, Shape.kept, hcoll, hob]
    rfl
  -- a batch axis of the result is its axis 0 (the one axis that is not an offset axis)
  have ebatch : ∀ X : Fin 3, X ∈ d.batchDims → ((ix3 j a b : (⟨3, ![n, A, B]⟩ : Shape).Idx) X).val = j.val := by
    intro X hX
    have hX0 : X = 0 := by
      simp only [GatherDims.batchDims, Shape.kept, hoff, List.mem_filter] at hX
      have h12 : X ≠ 1 ∧ X ≠ 2 := by simpa using hX.2
      match X with
      | ⟨0, _⟩ => rfl
      | ⟨1, _⟩ => exact absurd rfl h12.1
      | ⟨2, _⟩ => exact absurd rfl h12.2
    subst hX0; rfl
  -- the result's coordinates on its axes 1 and 2
  have e1 : ∀ X : Fin 3, X = 1 → ((ix3 j a b : (⟨3, ![n, A, B]⟩ : Shape).Idx) X).val = a.val := by
    intro X hX; subst hX; rfl
  have e2 : ∀ X : Fin 3, X = 2 → ((ix3 j a b : (⟨3, ![n, A, B]⟩ : Shape).Idx) X).val = b.val := by
    intro X hX; subst hX; rfl
  have hm : ∀ q : Fin 3, q ≠ 0 → q ∉ d.startIndexMap := fun q hq => by
    rw [hsim]; exact fun h => hq (List.mem_singleton.mp h)
  match q with
  | ⟨0, _⟩ =>
    -- the collapsed axis: the clamped start, no batching and no offset coordinate
    have hk : (0 : Fin 3) ∉ d.sKept := by rw [GatherDims.mem_sKept, hcoll]; simp
    have hm0 : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 j a b) idx 0 + d.batchCoord (ix3 j a b) 0 + d.offCoord (ix3 j a b) 0
      = min (idx (ix2 j (0 : Fin 1))).toInt.toNat (N - 1)
    rw [GatherDims.batchCoord_eq_zero _ _ _ (hb 0), GatherDims.offCoord_eq_zero _ _ _ hk]
    simp only [Nat.add_zero]
    unfold GatherDims.start
    rw [dif_pos hm0]
    show min (idx _).toInt.toNat (N - d.sliceSizes 0) = min (idx (ix2 j (0 : Fin 1))).toInt.toNat (N - 1)
    rw [hsl]
    congr 3
    congr 1
    funext p
    apply Fin.ext
    match p with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (0 : Fin 3) d.startIndexMap = 0
      rw [hsim]; simp
  | ⟨1, _⟩ =>
    -- the first offset axis: no start, no batching coordinate, the result's coordinate on its axis 1
    have hk : (1 : Fin 3) ∈ d.sKept := by rw [hsk]; simp
    show d.start (ix3 j a b) idx 1 + d.batchCoord (ix3 j a b) 1 + d.offCoord (ix3 j a b) 1 = a.val
    rw [GatherDims.batchCoord_eq_zero _ _ _ (hb 1)]
    unfold GatherDims.start GatherDims.offCoord
    rw [dif_neg (hm 1 (by decide)), dif_pos hk]
    simp only [Nat.zero_add]
    exact e1 _ ((getElem_of_eq_of_eq hoff (show List.idxOf (1 : Fin 3) d.sKept = 0 by rw [hsk]; rfl) _).trans rfl)
  | ⟨2, _⟩ =>
    -- the second offset axis: the result's coordinate on its axis 2
    have hk : (2 : Fin 3) ∈ d.sKept := by rw [hsk]; simp
    show d.start (ix3 j a b) idx 2 + d.batchCoord (ix3 j a b) 2 + d.offCoord (ix3 j a b) 2 = b.val
    rw [GatherDims.batchCoord_eq_zero _ _ _ (hb 2)]
    unfold GatherDims.start GatherDims.offCoord
    rw [dif_neg (hm 2 (by decide)), dif_pos hk]
    simp only [Nat.zero_add]
    exact e2 _ ((getElem_of_eq_of_eq hoff (show List.idxOf (2 : Fin 3) d.sKept = 1 by rw [hsk]; rfl) _).trans rfl)

end Cert.LibGatherRows

end
-- ==== Proof.LibScatterAddRows.lean ====
/- The accumulating scatter of whole rows: operand [N, C] (or [N, A, B]), start indices [n, 1], updates [n, C] (or [n, A, B]); the operand's axis 0 is inserted and named by the one component of the index vector, the other axes are the update window. Update row j lands on operand row i exactly when its start index, read signed, equals i; a row outside [0, N) lands nowhere. -/
import Idealize.ShloMosaic.PureOps.Ideal
import Idealize.ShloMosaic.Lib.ValueIdx

noncomputable section

open scoped BigOperators

namespace Cert.LibScatterAddRows

open Idealize.ShloMosaic Idealize.ShloMosaic.ValueIdx

/-! ## One window axis -/

/-- An axis of a rank-2 shape is axis 0 or axis 1. -/
theorem axis2_cases {N C : Nat} (a : Fin (⟨2, ![N, C]⟩ : Shape).rank) : a = 0 ∨ a = 1 := by
  match a with
  | ⟨0, _⟩ => exact Or.inl rfl
  | ⟨1, _⟩ => exact Or.inr rfl

/-- The dimension numbers of a scatter of whole rows, one window axis. -/
abbrev rows2Dims (N n C : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section Rows2
variable {N n C w : Nat} (wf : ScatterDims.WF ⟨2, ![N, C]⟩ ⟨2, ![n, 1]⟩ ⟨2, ![n, C]⟩ [1] [0] [0] 1)
  (j : Fin n) (c : Fin C) (idx : IVec ⟨2, ![n, 1]⟩ w)

/-- On the inserted axis the window of update (j, c) starts at row j's start index, read signed. -/
theorem rows2_start0 : (rows2Dims N n C wf).start (ix2 j c) idx 0 = (idx (ix2 j (0 : Fin 1))).toInt := by
  unfold ScatterDims.start
  rw [dif_pos (show (0 : Fin 2) ∈ (rows2Dims N n C wf).scatterDimsToOperandDims from List.mem_singleton.mpr rfl)]
  have hsi : (rows2Dims N n C wf).siIdx (ix2 j c) ⟨List.idxOf (0 : Fin 2) (rows2Dims N n C wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the window axis the start is 0. -/
theorem rows2_start1 : (rows2Dims N n C wf).start (ix2 j c) idx 1 = 0 := by
  unfold ScatterDims.start
  rw [dif_neg]
  simp

/-- The inserted axis has window coordinate 0. -/
theorem rows2_window0 : (rows2Dims N n C wf).window (ix2 j c) 0 = 0 := by
  unfold ScatterDims.window
  rw [dif_neg]
  simp [ScatterDims.sKept, Shape.kept, List.mem_filter, List.mem_finRange]

/-- The window axis has the update's column as window coordinate. -/
theorem rows2_window1 : (rows2Dims N n C wf).window (ix2 j c) 1 = c.val := by
  unfold ScatterDims.window
  rw [dif_pos (by simp [ScatterDims.sKept, Shape.kept, List.mem_filter, List.mem_finRange])]
  rfl

/-- Update (j, c) lands on (i, c') exactly when row j's start index, read signed, is i and the columns agree. -/
theorem rows2_resultIdx?_eq_some_iff (i : Fin N) (c' : Fin C) :
    (rows2Dims N n C wf).resultIdx? (ix2 j c) idx = some (ix2 i c')
      ↔ ((idx (ix2 j (0 : Fin 1))).toInt = (i.val : ℤ) ∧ c = c') := by
  unfold ScatterDims.resultIdx?
  have hs0 : (rows2Dims N n C wf).start (ix2 j c) idx 0 + ((rows2Dims N n C wf).window (ix2 j c) 0 : ℤ)
      = (idx (ix2 j (0 : Fin 1))).toInt := by
    rw [rows2_start0, rows2_window0]; simp
  have hs1 : (rows2Dims N n C wf).start (ix2 j c) idx 1 + ((rows2Dims N n C wf).window (ix2 j c) 1 : ℤ)
      = (c.val : ℤ) := by
    rw [rows2_start1, rows2_window1]; simp
  constructor
  · intro h
    split at h
    · rename_i hall
      have e := Option.some.inj h
      have h0 := congrArg Fin.val (congrFun e 0)
      have h1 := congrArg Fin.val (congrFun e 1)
      change ((rows2Dims N n C wf).start (ix2 j c) idx 0 + ((rows2Dims N n C wf).window (ix2 j c) 0 : ℤ)).toNat
        = i.val at h0
      change ((rows2Dims N n C wf).start (ix2 j c) idx 1 + ((rows2Dims N n C wf).window (ix2 j c) 1 : ℤ)).toNat
        = c'.val at h1
      have hp := (hall 0).1
      rw [hs0] at h0 hp
      rw [hs1] at h1
      exact ⟨by omega, Fin.ext (by omega)⟩
    · exact absurd h (by simp)
  · rintro ⟨h, rfl⟩
    have hall : ∀ a, 0 ≤ (rows2Dims N n C wf).start (ix2 j c) idx a + ((rows2Dims N n C wf).window (ix2 j c) a : ℤ) ∧
        (rows2Dims N n C wf).start (ix2 j c) idx a + ((rows2Dims N n C wf).window (ix2 j c) a : ℤ)
          < ((⟨2, ![N, C]⟩ : Shape).size a : ℤ) := by
      intro a
      rcases axis2_cases a with rfl | rfl
      · rw [hs0, h]
        have := i.isLt
        constructor
        · omega
        · change (i.val : ℤ) < (N : ℤ); omega
      · rw [hs1]
        have := c.isLt
        constructor
        · omega
        · change (c.val : ℤ) < (C : ℤ); omega
    rw [dif_pos hall]
    congr 1
    funext a
    refine Fin.ext ?_
    rcases axis2_cases a with rfl | rfl
    · change ((rows2Dims N n C wf).start (ix2 j c) idx 0 + ((rows2Dims N n C wf).window (ix2 j c) 0 : ℤ)).toNat = i.val
      rw [hs0, h]; simp
    · change ((rows2Dims N n C wf).start (ix2 j c) idx 1 + ((rows2Dims N n C wf).window (ix2 j c) 1 : ℤ)).toNat = c.val
      rw [hs1]; simp

end Rows2

/-- THE ROW SCATTER-ADD READ AT (i, c), one window axis: the operand there plus the sum, over the update rows whose
    start index is i, of the update at column c. -/
theorem scatterAdd_rows2_apply {N n C w : Nat} {φ : FTy} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1)
    (x : FVec Ideal ⟨2, ![N, C]⟩ φ) (idx : IVec ⟨2, ![n, 1]⟩ w) (upd : FVec Ideal ⟨2, ![n, C]⟩ φ) (i : Fin N) (c : Fin C) :
    Host.scatterAdd d x idx upd (ix2 i c)
      = x (ix2 i c) + ∑ j ∈ Finset.univ.filter (fun j : Fin n => (idx (ix2 j (0 : Fin 1))).toInt = (i.val : ℤ)), upd (ix2 j c) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix2 j c) ?_ ?_ ?_ ?_
  · intro j hj
    simp only [Finset.mem_filter, Finset.mem_univ, true_and] at hj ⊢
    exact (rows2_resultIdx?_eq_some_iff wf j c idx i c).2 ⟨hj, rfl⟩
  · intro j _ j' _ hjj
    exact congrFun hjj 0
  · intro p hp
    simp only [Finset.mem_filter, Finset.mem_univ, true_and] at hp
    rw [eq_ix2 p] at hp ⊢
    obtain ⟨h0, h1⟩ := (rows2_resultIdx?_eq_some_iff wf (p 0) (p 1) idx i c).1 hp
    exact ⟨p 0, Finset.mem_filter.2 ⟨Finset.mem_univ _, h0⟩, congrArg (ix2 (p 0)) h1.symm⟩
  · intro j _
    rfl

/-! ## Two window axes -/

/-- An axis of a rank-3 shape is axis 0, 1 or 2. -/
theorem axis3_cases {N A B : Nat} (a : Fin (⟨3, ![N, A, B]⟩ : Shape).rank) : a = 0 ∨ a = 1 ∨ a = 2 := by
  match a with
  | ⟨0, _⟩ => exact Or.inl rfl
  | ⟨1, _⟩ => exact Or.inr (Or.inl rfl)
  | ⟨2, _⟩ => exact Or.inr (Or.inr rfl)

/-- The dimension numbers of a scatter of whole rows, two window axes. -/
abbrev rows3Dims (N n A B : Nat)
    (wf : ScatterDims.WF ⟨3, ![N, A, B]⟩ ⟨2, ![n, 1]⟩ ⟨3, ![n, A, B]⟩ [1, 2] [0] [0] 1) :
    ScatterDims ⟨3, ![N, A, B]⟩ ⟨2, ![n, 1]⟩ ⟨3, ![n, A, B]⟩ where
  updateWindowDims := [1, 2]
  insertedWindowDims := [0]
  scatterDimsToOperandDims := [0]
  indexVectorDim := 1
  wf := wf

section Rows3
variable {N n A B w : Nat} (wf : ScatterDims.WF ⟨3, ![N, A, B]⟩ ⟨2, ![n, 1]⟩ ⟨3, ![n, A, B]⟩ [1, 2] [0] [0] 1)
  (j : Fin n) (a : Fin A) (b : Fin B) (idx : IVec ⟨2, ![n, 1]⟩ w)

/-- On the inserted axis the window of update (j, a, b) starts at row j's start index, read signed. -/
theorem rows3_start0 : (rows3Dims N n A B wf).start (ix3 j a b) idx 0 = (idx (ix2 j (0 : Fin 1))).toInt := by
  unfold ScatterDims.start
  rw [dif_pos (show (0 : Fin 3) ∈ (rows3Dims N n A B wf).scatterDimsToOperandDims from List.mem_singleton.mpr rfl)]
  have hsi : (rows3Dims N n A B wf).siIdx (ix3 j a b)
      ⟨List.idxOf (0 : Fin 3) (rows3Dims N n A B wf).scatterDimsToOperandDims,
        List.idxOf_lt_length_iff.2 (List.mem_singleton.mpr rfl)⟩ = ix2 j (0 : Fin 1) := by
    funext e; refine Fin.ext ?_
    match e with
    | ⟨0, _⟩ => rfl
    | ⟨1, _⟩ => rfl
  rw [hsi]

/-- On the first window axis the start is 0. -/
theorem rows3_start1 : (rows3Dims N n A B wf).start (ix3 j a b) idx 1 = 0 := by
  unfold ScatterDims.start
  rw [dif_neg]
  simp

/-- On the second window axis the start is 0. -/
theorem rows3_start2 : (rows3Dims N n A B wf).start (ix3 j a b) idx 2 = 0 := by
  unfold ScatterDims.start
  rw [dif_neg]
  simp

/-- The inserted axis has window coordinate 0. -/
theorem rows3_window0 : (rows3Dims N n A B wf).window (ix3 j a b) 0 = 0 := by
  unfold ScatterDims.window
  rw [dif_neg]
  simp [ScatterDims.sKept, Shape.kept, List.mem_filter, List.mem_finRange]

/-- The first window axis has the update's second coordinate as window coordinate. -/
theorem rows3_window1 : (rows3Dims N n A B wf).window (ix3 j a b) 1 = a.val := by
  unfold ScatterDims.window
  rw [dif_pos (by simp [ScatterDims.sKept, Shape.kept, List.mem_filter, List.mem_finRange])]
  rfl

/-- The second window axis has the update's third coordinate as window coordinate. -/
theorem rows3_window2 : (rows3Dims N n A B wf).window (ix3 j a b) 2 = b.val := by
  unfold ScatterDims.window
  rw [dif_pos (by simp [ScatterDims.sKept, Shape.kept, List.mem_filter, List.mem_finRange])]
  rfl

/-- Update (j, a, b) lands on (i, a', b') exactly when row j's start index, read signed, is i and the window
    coordinates agree. -/
theorem rows3_resultIdx?_eq_some_iff (i : Fin N) (a' : Fin A) (b' : Fin B) :
    (rows3Dims N n A B wf).resultIdx? (ix3 j a b) idx = some (ix3 i a' b')
      ↔ ((idx (ix2 j (0 : Fin 1))).toInt = (i.val : ℤ) ∧ a = a' ∧ b = b') := by
  unfold ScatterDims.resultIdx?
  have hs0 : (rows3Dims N n A B wf).start (ix3 j a b) idx 0 + ((rows3Dims N n A B wf).window (ix3 j a b) 0 : ℤ)
      = (idx (ix2 j (0 : Fin 1))).toInt := by
    rw [rows3_start0, rows3_window0]; simp
  have hs1 : (rows3Dims N n A B wf).start (ix3 j a b) idx 1 + ((rows3Dims N n A B wf).window (ix3 j a b) 1 : ℤ)
      = (a.val : ℤ) := by
    rw [rows3_start1, rows3_window1]; simp
  have hs2 : (rows3Dims N n A B wf).start (ix3 j a b) idx 2 + ((rows3Dims N n A B wf).window (ix3 j a b) 2 : ℤ)
      = (b.val : ℤ) := by
    rw [rows3_start2, rows3_window2]; simp
  constructor
  · intro h
    split at h
    · rename_i hall
      have e := Option.some.inj h
      have h0 := congrArg Fin.val (congrFun e 0)
      have h1 := congrArg Fin.val (congrFun e 1)
      have h2 := congrArg Fin.val (congrFun e 2)
      change ((rows3Dims N n A B wf).start (ix3 j a b) idx 0 + ((rows3Dims N n A B wf).window (ix3 j a b) 0 : ℤ)).toNat
        = i.val at h0
      change ((rows3Dims N n A B wf).start (ix3 j a b) idx 1 + ((rows3Dims N n A B wf).window (ix3 j a b) 1 : ℤ)).toNat
        = a'.val at h1
      change ((rows3Dims N n A B wf).start (ix3 j a b) idx 2 + ((rows3Dims N n A B wf).window (ix3 j a b) 2 : ℤ)).toNat
        = b'.val at h2
      have hp := (hall 0).1
      rw [hs0] at h0 hp
      rw [hs1] at h1
      rw [hs2] at h2
      exact ⟨by omega, Fin.ext (by omega), Fin.ext (by omega)⟩
    · exact absurd h (by simp)
  · rintro ⟨h, rfl, rfl⟩
    have hall : ∀ e, 0 ≤ (rows3Dims N n A B wf).start (ix3 j a b) idx e + ((rows3Dims N n A B wf).window (ix3 j a b) e : ℤ) ∧
        (rows3Dims N n A B wf).start (ix3 j a b) idx e + ((rows3Dims N n A B wf).window (ix3 j a b) e : ℤ)
          < ((⟨3, ![N, A, B]⟩ : Shape).size e : ℤ) := by
      intro e
      rcases axis3_cases e with rfl | rfl | rfl
      · rw [hs0, h]
        have := i.isLt
        constructor
        · omega
        · change (i.val : ℤ) < (N : ℤ); omega
      · rw [hs1]
        have := a.isLt
        constructor
        · omega
        · change (a.val : ℤ) < (A : ℤ); omega
      · rw [hs2]
        have := b.isLt
        constructor
        · omega
        · change (b.val : ℤ) < (B : ℤ); omega
    rw [dif_pos hall]
    congr 1
    funext e
    refine Fin.ext ?_
    rcases axis3_cases e with rfl | rfl | rfl
    · change ((rows3Dims N n A B wf).start (ix3 j a b) idx 0 + ((rows3Dims N n A B wf).window (ix3 j a b) 0 : ℤ)).toNat = i.val
      rw [hs0, h]; simp
    · change ((rows3Dims N n A B wf).start (ix3 j a b) idx 1 + ((rows3Dims N n A B wf).window (ix3 j a b) 1 : ℤ)).toNat = a.val
      rw [hs1]; simp
    · change ((rows3Dims N n A B wf).start (ix3 j a b) idx 2 + ((rows3Dims N n A B wf).window (ix3 j a b) 2 : ℤ)).toNat = b.val
      rw [hs2]; simp

end Rows3

/-- The same with two window axes. -/
theorem scatterAdd_rows3_apply {N n A B w : Nat} {φ : FTy} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1)
    (x : FVec Ideal ⟨3, ![N, A, B]⟩ φ) (idx : IVec ⟨2, ![n, 1]⟩ w) (upd : FVec Ideal ⟨3, ![n, A, B]⟩ φ)
    (i : Fin N) (a : Fin A) (b : Fin B) :
    Host.scatterAdd d x idx upd (ix3 i a b)
      = x (ix3 i a b) + ∑ j ∈ Finset.univ.filter (fun j : Fin n => (idx (ix2 j (0 : Fin 1))).toInt = (i.val : ℤ)), upd (ix3 j a b) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix3 j a b) ?_ ?_ ?_ ?_
  · intro j hj
    simp only [Finset.mem_filter, Finset.mem_univ, true_and] at hj ⊢
    exact (rows3_resultIdx?_eq_some_iff wf j a b idx i a b).2 ⟨hj, rfl, rfl⟩
  · intro j _ j' _ hjj
    exact congrFun hjj 0
  · intro p hp
    simp only [Finset.mem_filter, Finset.mem_univ, true_and] at hp
    rw [eq_ix3 p] at hp ⊢
    obtain ⟨h0, h1, h2⟩ := (rows3_resultIdx?_eq_some_iff wf (p 0) (p 1) (p 2) idx i a b).1 hp
    exact ⟨p 0, Finset.mem_filter.2 ⟨Finset.mem_univ _, h0⟩, congrArg₂ (ix3 (p 0)) h1.symm h2.symm⟩
  · intro j _
    rfl

end Cert.LibScatterAddRows

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KernelHost.lean ====
/-
  The host operations between and after the two kernels, read at an index over the extended reals.

  One aggregation layer is a gather of rows followed by a scatter-add of rows: row e of the gathered array is row
  `rowOf (src e)` of the operand (the start word wrapped if negative, read signed, clamped), and it is added into row n of
  a zero array exactly when the destination word of e, read signed, is n. So the layer at (n, k) is the sum over the edges
  landing on n of the operand at (rowOf (src e), k). The tail scales the one-column aggregate by the node weight, adds the
  bias and drops the unit axis.
-/
import proofs.«126473_j7997229105851_1_alg».proof.Proof.Spec
import proofs.«126473_j7997229105851_1_alg».proof.Proof.LibGatherRows
import proofs.«126473_j7997229105851_1_alg».proof.Proof.LibScatterAddRows
import proofs.«126473_j7997229105851_1_alg».proof.Proof.LibKeepdims
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Gcn.Host

open Idealize.ShloMosaic Idealize.ShloMosaic.ValueIdx

abbrev SE : Shape := ⟨1, ![1700000]⟩
abbrev SEx1 : Shape := ⟨2, ![1700000, 1]⟩
abbrev S0 : Shape := ⟨0, ![]⟩

/-- A vector of edge words viewed as a column reads, at (e, 0), the word of edge e. -/
theorem col_apply {w : Nat} (hb : SE.BroadcastsInDim SEx1 ![0]) (d : IVec SE w) (e : Fin 1700000) :
    broadcastInDim SEx1 ![0] hb d (ix2 e (0 : Fin 1)) = d (ix1 e) := by
  refine broadcastInDim_apply ![0] hb d _ (ix1 e) fun a => ?_
  match a with
  | ⟨0, _⟩ =>
    show e.val = if (1700000 : Nat) = 1 then 0 else e.val
    rw [if_neg (by decide)]

/-- The wrapped start words, read at edge e: the word of e wrapped. -/
theorem wrap_apply (hbs : S0.BroadcastsInDim SE ![]) (s : IVec SE 32) (e : Fin 1700000) :
    select (cmpi .slt s (broadcastInDim SE ![] hbs (constantI S0 32 0#32)))
      (addi s (broadcastInDim SE ![] hbs (constantI S0 32 100000#32))) s (ix1 e) = Gcn.wrapw (s (ix1 e)) := rfl

/-- ONE AGGREGATION LAYER at (n, k): the sum, over the edges whose destination word read signed is n, of the operand at
    the source row of the edge. -/
theorem agg_apply {C : Nat}
    (ds : ScatterDims ⟨2, ![100000, C]⟩ SEx1 ⟨2, ![1700000, C]⟩)
    (hu : ds.updateWindowDims = [1]) (hi : ds.insertedWindowDims = [0]) (hs : ds.scatterDimsToOperandDims = [0])
    (hv : ds.indexVectorDim = 1)
    (dg : GatherDims ⟨2, ![100000, C]⟩ SEx1 ⟨2, ![1700000, C]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1)
    (hb0 : S0.BroadcastsInDim ⟨2, ![100000, C]⟩ ![]) (hb1 : SE.BroadcastsInDim SEx1 ![0]) (hbs : S0.BroadcastsInDim SE ![])
    (A : FVec Ideal ⟨2, ![100000, C]⟩ .f32) (s d : IVec SE 32) (n : Fin 100000) (k : Fin C) :
    Host.scatterAdd ds (broadcastInDim ⟨2, ![100000, C]⟩ ![] hb0 (constant S0 .f32 0x00000000#32))
        (broadcastInDim SEx1 ![0] hb1 d)
        (Host.gather dg A (broadcastInDim SEx1 ![0] hb1
          (select (cmpi .slt s (broadcastInDim SE ![] hbs (constantI S0 32 0#32)))
            (addi s (broadcastInDim SE ![] hbs (constantI S0 32 100000#32))) s))) (ix2 n k)
      = 0 + ∑ e ∈ Gcn.inEdges (fun e => d (ix1 e)) n, A (ix2 (Gcn.rowOf (s (ix1 e))) k) := by
  rw [Cert.LibScatterAddRows.scatterAdd_rows2_apply ds hu hi hs hv]
  refine congrArg₂ (fun a b : EReal => a + b) ?_ ?_
  · rw [broadcastInDim_scalar_apply]
    exact Ideal.ofBits_zero_f32
  · unfold Gcn.inEdges
    refine Finset.sum_congr (Finset.ext fun e => by
      simp only [Finset.mem_filter, Finset.mem_univ, true_and]
      rw [col_apply]) fun e _ => ?_
    rw [Cert.LibGatherRows.gather_rows2_apply (by decide) dg hoff hcoll hob hsb hsim hivd]
    refine congrArg (fun r : Fin 100000 => A (ix2 r k)) (Fin.ext ?_)
    show min (broadcastInDim SEx1 ![0] hb1 (select (cmpi .slt s (broadcastInDim SE ![] hbs (constantI S0 32 0#32)))
        (addi s (broadcastInDim SE ![] hbs (constantI S0 32 100000#32))) s) (ix2 e (0 : Fin 1))).toInt.toNat (100000 - 1)
      = min (Gcn.wrapw (s (ix1 e))).toInt.toNat (100000 - 1)
    rw [col_apply, wrap_apply]

/-- THE TAIL at n: the one-column aggregate at (n, 0) times the node weight at (n, 0), plus the bias. -/
theorem tail_apply (hc : (⟨2, ![100000, 1]⟩ : Shape).ShapeCasts ⟨1, ![100000]⟩)
    (hb : (⟨2, ![1, 1]⟩ : Shape).BroadcastsInDim ⟨2, ![100000, 1]⟩ ![0, 1])
    (hc5 : (⟨1, ![1]⟩ : Shape).ShapeCasts ⟨2, ![1, 1]⟩)
    (G A15 : FVec Ideal ⟨2, ![100000, 1]⟩ .f32) (A5 : FVec Ideal ⟨1, ![1]⟩ .f32) (n : Fin 100000) :
    shapeCast ⟨1, ![100000]⟩ (addf (mulf G A15)
        (broadcastInDim ⟨2, ![100000, 1]⟩ ![0, 1] hb (shapeCast ⟨2, ![1, 1]⟩ A5 hc5))) hc (ix1 n)
      = G (ix2 n (0 : Fin 1)) * A15 (ix2 n (0 : Fin 1)) + A5 (ix1 (0 : Fin 1)) := by
  rw [shapeCast_apply _ hc (ix1 n) (ix2 n (0 : Fin 1)) (by
    rw [Shape.rowMajor_val_two, Shape.rowMajor_val_one]
    show n.val * 1 + 0 = n.val
    omega)]
  show G (ix2 n (0 : Fin 1)) * A15 (ix2 n (0 : Fin 1))
      + broadcastInDim ⟨2, ![100000, 1]⟩ ![0, 1] hb (shapeCast ⟨2, ![1, 1]⟩ A5 hc5) (ix2 n (0 : Fin 1)) = _
  rw [broadcastInDim_apply ![0, 1] hb _ (ix2 n (0 : Fin 1)) (ix2 (0 : Fin 1) (0 : Fin 1)) (fun a => by
    match a with
    | ⟨0, _⟩ => show 0 = if (1 : Nat) = 1 then 0 else n.val; rw [if_pos rfl]
    | ⟨1, _⟩ => show 0 = if (1 : Nat) = 1 then 0 else 0; rw [if_pos rfl]),
    Idealize.ShloMosaic.Keepdims.shapeCast_a_a1_apply]

end Gcn.Host

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.Regions.lean ====
/-
  What each of the kernel's two pipelined regions leaves in its output array, as one function of the arrays the
  region finds when it is entered, read at an index. Floats are extended reals here, so a change of format is the
  identity and a matrix product into the zero accumulator is a plain sum over the contracted lane.

  Region 0 (the scaled projection): entry (r, k) of its output is row r of the feature matrix against column k of
  the weight matrix, summed over the 128 lanes, times the scale of row r.
  Region 1 (the finished projection): entry r of its output column is the sum over the 128 lanes k of
  max (agg(r, k) · scale(r) + bias(k), 0) · weight2(k), times the scale of row r.

  Each region walks 20 grid points; point t holds rows 5000 t … 5000 t + 4999 of every row-blocked array and the whole
  of the small ones. The body's stored block at point t is therefore block t of the whole-array function, and the 20
  blocks fill the 100000 rows, so after the last point the output array is that function everywhere.
-/
import proofs.«126473_j7997229105851_1_alg».proof.Proof.Gen.KernelIdeal.Frame
import proofs.«126473_j7997229105851_1_alg».proof.Proof.LibPlainDot
import proofs.«126473_j7997229105851_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.ValueIdx Idealize.ShloMosaic.Keepdims
open Idealize.ShloMosaic.Pipeline (Dat)

namespace Cert.KernelIdeal.RegionValue

open Cert.KernelIdeal Cert.KernelIdeal.Gen

/-! ## The two payloads read at an index

Over the extended reals a change of float format is the identity and the zero word is the real zero, so each
body's stored value at a row is a plain sum over the 128 contracted lanes. -/

/-- The program's two matrix-product records are the plain ones: contract the left operand's last axis with the
    right operand's first, no batch axis. -/
theorem dot0_plain : dot_S5000x128_S128x128_S5000x128_1_0_0_1_n_n = DotDims.plain 5000 128 128 := rfl
theorem dot1_plain : dot_S5000x128_S128x1_S5000x1_1_0_0_1_n_n = DotDims.plain 5000 128 1 := rfl

/-- A row `[1, b]` broadcast down to `[a, b]` reads, at `(r, c)`, the row at column `c`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- First body: row `p` of the features times column `q` of the weights, summed over the 128 lanes, then scaled by
    the row's entry of the scale column. -/
theorem projScale_apply (x : Vec Ideal S5000x128 .f32) (w : Vec Ideal S128x128 .f32) (d : Vec Ideal S5000x1 .f32)
    (p : Fin 5000) (q : Fin 128) :
    k0_pay1 (F := Ideal) x w d (ix2 p q)
      = (∑ j : Fin 128, x (ix2 p j) * w (ix2 j q)) * d (ix2 p (0 : Fin 1)) := by
  unfold k0_pay1
  rw [mulf_apply, shapeCast_self, broadcastTo_a1_ab_apply, dot0_plain]
  refine congrArg (· * d (ix2 p (0 : Fin 1))) ?_
  exact PlainDot.matmul_zero_apply 5000 128 128 _ _ (ix2 p q)

/-- Second body: each lane of row `p` is scaled by the row's scale, shifted by the lane's bias and clamped below at
    zero; the row is then contracted with the weight column and scaled once more. -/
theorem finishProj_apply (a : Vec Ideal S5000x128 .f32) (d : Vec Ideal S5000x1 .f32) (b : Vec Ideal S1x128 .f32)
    (w : Vec Ideal S128x1 .f32) (d' : Vec Ideal S5000x1 .f32) (p : Fin 5000) :
    k1_pay1 (F := Ideal) a d b w d' (ix2 p (0 : Fin 1))
      = (∑ k : Fin 128, max (a (ix2 p k) * d (ix2 p (0 : Fin 1)) + b (ix2 (0 : Fin 1) k)) 0 * w (ix2 k (0 : Fin 1)))
          * d' (ix2 p (0 : Fin 1)) := by
  unfold k1_pay1
  simp only [shapeCast_self]
  rw [mulf_apply, dot1_plain]
  refine congrArg (· * d' (ix2 p (0 : Fin 1))) ?_
  refine (PlainDot.matmul_zero_apply 5000 128 1 _ _ (ix2 p (0 : Fin 1))).trans ?_
  refine Finset.sum_congr rfl fun k _ => ?_
  show max (a (ix2 p k) * broadcastTo S5000x128 d broadcasts_S5000x1_S5000x128 (ix2 p k)
      + broadcastTo S5000x128 b broadcasts_S1x128_S5000x128 (ix2 p k)) (Ideal.ofBits .f32 0x00000000#32)
        * w (ix2 k (0 : Fin 1)) = _
  rw [broadcastTo_a1_ab_apply, broadcastTo_1b_ab_apply, Ideal.ofBits_zero_f32]

section Regions
variable (V : (c : Dev nD) → (b : Ref sig .tc) → Buf (Elt Ideal) ((c : Thread nD τ).loc b))

/-- Both bodies load and store whole staging buffers: rectangles at offset zero. -/
theorem zeroOffsets : (![0, 0] : Fin 2 → Nat) = fun _ => 0 := funext fun a => by fin_cases a <;> rfl

/-! ## The arrays the regions read, as functions on literal index sets -/

/-- The feature matrix, 100000 rows of 128 lanes. -/
abbrev featArr (c : Dev nD) : S100000x128.Idx → EReal := V c main_arg0
/-- The first weight matrix. -/
abbrev weightArr (c : Dev nD) : S128x128.Idx → EReal := V c main_arg2
/-- The per-row scale, a column; both regions read it. -/
abbrev scaleArr (c : Dev nD) : S100000x1.Idx → EReal := V c main_v15
/-- The aggregated rows the second region starts from. -/
abbrev aggArr (c : Dev nD) : S100000x128.Idx → EReal := V c main_v26
/-- The bias, one row of 128 lanes. -/
abbrev biasArr (c : Dev nD) : S1x128.Idx → EReal := V c main_v27
/-- The second weight matrix, one column. -/
abbrev weight2Arr (c : Dev nD) : S128x1.Idx → EReal := V c main_arg4

/-! ## Region 0: the scaled projection -/

/-- The input blocks of region 0 at a point, at their literal types. -/
abbrev featBlk (c : Dev nD) (t : Fin cfg0.N) : Vec Ideal S5000x128 .f32 := iblk0 V c 0 t
abbrev weightBlk (c : Dev nD) (t : Fin cfg0.N) : Vec Ideal S128x128 .f32 := iblk0 V c 1 t
abbrev scaleBlk0 (c : Dev nD) (t : Fin cfg0.N) : Vec Ideal S5000x1 .f32 := iblk0 V c 2 t

/-- The whole output of region 0 as one function of the three arrays: entry `(r, k)` is row `r` of the features
    against column `k` of the weights, times the scale of row `r`. -/
abbrev proj (x : S100000x128.Idx → EReal) (w : S128x128.Idx → EReal) (d : S100000x1.Idx → EReal) :
    S100000x128.Idx → EReal :=
  fun i => (∑ j : Fin 128, x (ix2 (n0 := 100000) (n1 := 128) (i 0) j) * w (ix2 (n0 := 128) (n1 := 128) j (i 1)))
    * d (ix2 (n0 := 100000) (n1 := 1) (i 0) (0 : Fin 1))

/-- The block indices over the 20 grid points: the row-blocked windows sit at block `t`, the weights at block 0. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the feature block at point `t` is row `5000 t + p` of the feature matrix. -/
theorem featBlk_apply (c : Dev nD) (t : Fin cfg0.N) (p : Fin 5000) (j : Fin 128) (r : Fin 100000)
    (hr : r.val = t.val * 5000 + p.val) : featBlk V c t (ix2 p j) = featArr V c (ix2 r j) := by
  show V c main_arg0 (((cfg0.win 0).blk t).view.emb (ix2 p j)) = V c main_arg0 (ix2 r j)
  refine congrArg (V c main_arg0) (funext fun a => Fin.ext ?_)
  obtain ⟨e0, e1, -⟩ := blockIdx0 t
  match a with
  | ⟨0, _⟩ => show win0_0.index t (0 : Fin 2) * 5000 + 1 * p.val = r.val; omega
  | ⟨1, _⟩ => show win0_0.index t (1 : Fin 2) * 128 + 1 * j.val = j.val; omega

/-- The weight block is the whole weight matrix at every point. -/
theorem weightBlk_apply (c : Dev nD) (t : Fin cfg0.N) (j : Fin 128) (q : Fin 128) :
    weightBlk V c t (ix2 j q) = weightArr V c (ix2 j q) := by
  show V c main_arg2 (((cfg0.win 1).blk t).view.emb (ix2 j q)) = V c main_arg2 (ix2 j q)
  refine congrArg (V c main_arg2) (funext fun a => Fin.ext ?_)
  obtain ⟨-, -, e0, e1, -⟩ := blockIdx0 t
  match a with
  | ⟨0, _⟩ => show win0_1.index t (0 : Fin 2) * 128 + 1 * j.val = j.val; omega
  | ⟨1, _⟩ => show win0_1.index t (1 : Fin 2) * 128 + 1 * q.val = q.val; omega

/-- Row `p` of the scale block at point `t` is row `5000 t + p` of the scale column. -/
theorem scaleBlk0_apply (c : Dev nD) (t : Fin cfg0.N) (p : Fin 5000) (r : Fin 100000)
    (hr : r.val = t.val * 5000 + p.val) :
    scaleBlk0 V c t (ix2 p (0 : Fin 1)) = scaleArr V c (ix2 r (0 : Fin 1)) := by
  show V c main_v15 (((cfg0.win 2).blk t).view.emb (ix2 p (0 : Fin 1))) = V c main_v15 (ix2 r (0 : Fin 1))
  refine congrArg (V c main_v15) (funext fun a => Fin.ext ?_)
  obtain ⟨-, -, -, -, e0, e1, -⟩ := blockIdx0 t
  match a with
  | ⟨0, _⟩ => show win0_2.index t (0 : Fin 2) * 5000 + 1 * p.val = r.val; omega
  | ⟨1, _⟩ => show win0_2.index t (1 : Fin 2) * 1 + 1 * (0 : Fin 1).val = (0 : Fin 1).val; omega

/-- What point `t` writes back is block `t` of the scaled projection of the arrays as the region finds them. -/
theorem flushed0 (c : Dev nD) (t : Fin cfg0.N) :
    (dat0 (F := Ideal) V c).flushed 3 t
      = ((cfg0.win 3).blk t).view.read (Elt Ideal) (proj (featArr V c) (weightArr V c) (scaleArr V c)) := by
  show (cfg0.win 3).cut (grid0.coords t) ((dat0 (F := Ideal) V c).after 3 t) = _
  rw [after0_3]
  unfold out0_3
  rw [View.canon_unit_zero zeroOffsets]
  simp only [View.ld_unit_zero (S := S5000x128) zeroOffsets, View.ld_unit_zero (S := S128x128) zeroOffsets,
    View.ld_unit_zero (S := S5000x1) zeroOffsets]
  funext y
  obtain ⟨p, q, rfl⟩ : ∃ (p : Fin 5000) (q : Fin 128), y = ix2 p q := ⟨y 0, y 1, eq_ix2 y⟩
  have ht : t.val < 20 := lt_of_lt_of_eq t.isLt N_0
  have hp : p.val < 5000 := p.isLt
  obtain ⟨r, hr⟩ : ∃ r : Fin 100000, r.val = t.val * 5000 + p.val := ⟨⟨t.val * 5000 + p.val, by omega⟩, rfl⟩
  have he : ((cfg0.win 3).blk t).view.emb (ix2 p q) = ix2 (n0 := 100000) (n1 := 128) r q := by
    funext a; apply Fin.ext
    obtain ⟨-, -, -, -, -, -, e0, e1⟩ := blockIdx0 t
    match a with
    | ⟨0, _⟩ => show win0_3.index t (0 : Fin 2) * 5000 + 1 * p.val = r.val; omega
    | ⟨1, _⟩ => show win0_3.index t (1 : Fin 2) * 128 + 1 * q.val = q.val; omega
  show k0_pay1 (F := Ideal) (featBlk V c t) (weightBlk V c t) (scaleBlk0 V c t) (ix2 p q)
    = proj (featArr V c) (weightArr V c) (scaleArr V c) (((cfg0.win 3).blk t).view.emb (ix2 p q))
  rw [he]
  refine (projScale_apply (featBlk V c t) (weightBlk V c t) (scaleBlk0 V c t) p q).trans ?_
  show _ = (∑ j : Fin 128, featArr V c (ix2 r j) * weightArr V c (ix2 j q)) * scaleArr V c (ix2 r (0 : Fin 1))
  rw [scaleBlk0_apply V c t p r hr]
  refine congrArg (· * scaleArr V c (ix2 r (0 : Fin 1))) (Finset.sum_congr rfl fun j _ => ?_)
  rw [featBlk_apply V c t p j r hr, weightBlk_apply V c t j q]

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Twenty blocks of 5000 rows fill the 100000 rows: row `r` lies in the block of point `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  refine ⟨t, flush0_3 t, ?_⟩
  rw [mem_blk0]
  obtain ⟨-, -, -, -, -, -, e0, e1⟩ := blockIdx0 t
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- After its 20 points region 0's output array holds the scaled projection, entry by entry. -/
theorem arr0 (c : Dev nD) (r : Fin 100000) (k : Fin 128) :
    (dat0 (F := Ideal) V c).arrAt 3 cfg0.N (ix2 r k)
      = (∑ j : Fin 128, featArr V c (ix2 r j) * weightArr V c (ix2 j k)) * scaleArr V c (ix2 r (0 : Fin 1)) :=
  congrFun ((dat0 (F := Ideal) V c).arrAt_eq_of_cover 3 (proj (featArr V c) (weightArr V c) (scaleArr V c))
    (fun t _ => flushed0 V c t) cover0) (ix2 r k)

/-! ## Region 1: the finished projection -/

/-- The input blocks of region 1 at a point, at their literal types. -/
abbrev aggBlk (c : Dev nD) (t : Fin cfg1.N) : Vec Ideal S5000x128 .f32 := iblk1 V c 0 t
abbrev scaleBlk1 (c : Dev nD) (t : Fin cfg1.N) : Vec Ideal S5000x1 .f32 := iblk1 V c 1 t
abbrev biasBlk (c : Dev nD) (t : Fin cfg1.N) : Vec Ideal S1x128 .f32 := iblk1 V c 2 t
abbrev weight2Blk (c : Dev nD) (t : Fin cfg1.N) : Vec Ideal S128x1 .f32 := iblk1 V c 3 t

/-- The whole output of region 1 as one function of the four arrays: at row `r`, each lane of the aggregated row is
    scaled, shifted by the bias and clamped below at zero, the row is contracted with the weight column, and the
    result is scaled by the row's scale again. -/
abbrev finish (a : S100000x128.Idx → EReal) (d : S100000x1.Idx → EReal) (b : S1x128.Idx → EReal)
    (w : S128x1.Idx → EReal) : S100000x1.Idx → EReal :=
  fun i => (∑ k : Fin 128,
      max (a (ix2 (n0 := 100000) (n1 := 128) (i 0) k) * d (ix2 (n0 := 100000) (n1 := 1) (i 0) (0 : Fin 1))
        + b (ix2 (n0 := 1) (n1 := 128) (0 : Fin 1) k)) 0 * w (ix2 (n0 := 128) (n1 := 1) k (0 : Fin 1)))
    * d (ix2 (n0 := 100000) (n1 := 1) (i 0) (0 : Fin 1))

/-- The block indices over the 20 grid points: the row-blocked windows sit at block `t`, the bias and the weight
    column at block 0. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the aggregated block at point `t` is row `5000 t + p` of the aggregated matrix. -/
theorem aggBlk_apply (c : Dev nD) (t : Fin cfg1.N) (p : Fin 5000) (k : Fin 128) (r : Fin 100000)
    (hr : r.val = t.val * 5000 + p.val) : aggBlk V c t (ix2 p k) = aggArr V c (ix2 r k) := by
  show V c main_v26 (((cfg1.win 0).blk t).view.emb (ix2 p k)) = V c main_v26 (ix2 r k)
  refine congrArg (V c main_v26) (funext fun a => Fin.ext ?_)
  obtain ⟨e0, e1, -⟩ := blockIdx1 t
  match a with
  | ⟨0, _⟩ => show win1_0.index t (0 : Fin 2) * 5000 + 1 * p.val = r.val; omega
  | ⟨1, _⟩ => show win1_0.index t (1 : Fin 2) * 128 + 1 * k.val = k.val; omega

/-- Row `p` of the scale block at point `t` is row `5000 t + p` of the scale column. -/
theorem scaleBlk1_apply (c : Dev nD) (t : Fin cfg1.N) (p : Fin 5000) (r : Fin 100000)
    (hr : r.val = t.val * 5000 + p.val) :
    scaleBlk1 V c t (ix2 p (0 : Fin 1)) = scaleArr V c (ix2 r (0 : Fin 1)) := by
  show V c main_v15 (((cfg1.win 1).blk t).view.emb (ix2 p (0 : Fin 1))) = V c main_v15 (ix2 r (0 : Fin 1))
  refine congrArg (V c main_v15) (funext fun a => Fin.ext ?_)
  obtain ⟨-, -, e0, e1, -⟩ := blockIdx1 t
  match a with
  | ⟨0, _⟩ => show win1_1.index t (0 : Fin 2) * 5000 + 1 * p.val = r.val; omega
  | ⟨1, _⟩ => show win1_1.index t (1 : Fin 2) * 1 + 1 * (0 : Fin 1).val = (0 : Fin 1).val; omega

/-- The bias block is the whole bias row at every point. -/
theorem biasBlk_apply (c : Dev nD) (t : Fin cfg1.N) (k : Fin 128) :
    biasBlk V c t (ix2 (0 : Fin 1) k) = biasArr V c (ix2 (0 : Fin 1) k) := by
  show V c main_v27 (((cfg1.win 2).blk t).view.emb (ix2 (0 : Fin 1) k)) = V c main_v27 (ix2 (0 : Fin 1) k)
  refine congrArg (V c main_v27) (funext fun a => Fin.ext ?_)
  obtain ⟨-, -, -, -, e0, e1, -⟩ := blockIdx1 t
  match a with
  | ⟨0, _⟩ => show win1_2.index t (0 : Fin 2) * 1 + 1 * (0 : Fin 1).val = (0 : Fin 1).val; omega
  | ⟨1, _⟩ => show win1_2.index t (1 : Fin 2) * 128 + 1 * k.val = k.val; omega

/-- The weight-column block is the whole column at every point. -/
theorem weight2Blk_apply (c : Dev nD) (t : Fin cfg1.N) (k : Fin 128) :
    weight2Blk V c t (ix2 k (0 : Fin 1)) = weight2Arr V c (ix2 k (0 : Fin 1)) := by
  show V c main_arg4 (((cfg1.win 3).blk t).view.emb (ix2 k (0 : Fin 1))) = V c main_arg4 (ix2 k (0 : Fin 1))
  refine congrArg (V c main_arg4) (funext fun a => Fin.ext ?_)
  obtain ⟨-, -, -, -, -, -, e0, e1, -⟩ := blockIdx1 t
  match a with
  | ⟨0, _⟩ => show win1_3.index t (0 : Fin 2) * 128 + 1 * k.val = k.val; omega
  | ⟨1, _⟩ => show win1_3.index t (1 : Fin 2) * 1 + 1 * (0 : Fin 1).val = (0 : Fin 1).val; omega

/-- What point `t` writes back is block `t` of the finished projection of the arrays as the region finds them. -/
theorem flushed1 (c : Dev nD) (t : Fin cfg1.N) :
    (dat1 (F := Ideal) V c).flushed 4 t
      = ((cfg1.win 4).blk t).view.read (Elt Ideal)
          (finish (aggArr V c) (scaleArr V c) (biasArr V c) (weight2Arr V c)) := by
  show (cfg1.win 4).cut (grid1.coords t) ((dat1 (F := Ideal) V c).after 4 t) = _
  rw [after1_4]
  unfold out1_4
  rw [View.canon_unit_zero zeroOffsets]
  simp only [View.ld_unit_zero (S := S5000x128) zeroOffsets, View.ld_unit_zero (S := S5000x1) zeroOffsets,
    View.ld_unit_zero (S := S1x128) zeroOffsets, View.ld_unit_zero (S := S128x1) zeroOffsets]
  funext y
  obtain ⟨p, u, rfl⟩ : ∃ (p : Fin 5000) (u : Fin 1), y = ix2 p u := ⟨y 0, y 1, eq_ix2 y⟩
  obtain rfl : u = 0 := Subsingleton.elim u 0
  have ht : t.val < 20 := lt_of_lt_of_eq t.isLt N_1
  have hp : p.val < 5000 := p.isLt
  obtain ⟨r, hr⟩ : ∃ r : Fin 100000, r.val = t.val * 5000 + p.val := ⟨⟨t.val * 5000 + p.val, by omega⟩, rfl⟩
  have he : ((cfg1.win 4).blk t).view.emb (ix2 p (0 : Fin 1)) = ix2 (n0 := 100000) (n1 := 1) r (0 : Fin 1) := by
    funext a; apply Fin.ext
    obtain ⟨-, -, -, -, -, -, -, -, e0, e1⟩ := blockIdx1 t
    match a with
    | ⟨0, _⟩ => show win1_4.index t (0 : Fin 2) * 5000 + 1 * p.val = r.val; omega
    | ⟨1, _⟩ => show win1_4.index t (1 : Fin 2) * 1 + 1 * (0 : Fin 1).val = (0 : Fin 1).val; omega
  show k1_pay1 (F := Ideal) (aggBlk V c t) (scaleBlk1 V c t) (biasBlk V c t) (weight2Blk V c t) (scaleBlk1 V c t)
      (ix2 p (0 : Fin 1))
    = finish (aggArr V c) (scaleArr V c) (biasArr V c) (weight2Arr V c)
        (((cfg1.win 4).blk t).view.emb (ix2 p (0 : Fin 1)))
  rw [he]
  refine (finishProj_apply (aggBlk V c t) (scaleBlk1 V c t) (biasBlk V c t) (weight2Blk V c t) (scaleBlk1 V c t) p).trans ?_
  show _ = (∑ k : Fin 128, max (aggArr V c (ix2 r k) * scaleArr V c (ix2 r (0 : Fin 1))
      + biasArr V c (ix2 (0 : Fin 1) k)) 0 * weight2Arr V c (ix2 k (0 : Fin 1))) * scaleArr V c (ix2 r (0 : Fin 1))
  rw [scaleBlk1_apply V c t p r hr]
  refine congrArg (· * scaleArr V c (ix2 r (0 : Fin 1))) (Finset.sum_congr rfl fun k _ => ?_)
  rw [aggBlk_apply V c t p k r hr, biasBlk_apply V c t k, weight2Blk_apply V c t k]

/-- An index of the output column is in point `t`'s block iff each coordinate is in the block's range on its axis. -/
theorem mem_blk1 (t : Fin cfg1.N) (i : S100000x1.Idx) :
    i ∈ ((cfg1.win 4).blk t).view.set ↔ ∀ a : Fin 2, win1_4.index t a * S5000x1.size a ≤ (i a).val
      ∧ (i a).val < win1_4.index t a * S5000x1.size a + S5000x1.size a := by
  show i ∈ ((View.whole main_v28).slice (win1_4.rect t)).set ↔ _
  rw [View.set_slice_whole, Rect.mem_set_unit]
  exact Iff.rfl

/-- Twenty blocks of 5000 rows fill the 100000 rows: row `r` lies in the block of point `r / 5000`. -/
theorem cover1 (i : S100000x1.Idx) :
    ∃ t : Fin cfg1.N, (cfg1.win 4).flush t = true ∧ i ∈ ((cfg1.win 4).blk t).view.set := by
  have hi0 : (i 0).val < 100000 := (i 0).isLt
  have hi1 : (i 1).val < 1 := (i 1).isLt
  obtain ⟨t, ht⟩ : ∃ t : Fin cfg1.N, t.val = (i 0).val / 5000 :=
    ⟨⟨(i 0).val / 5000, by rw [show cfg1.N = 20 from N_1]; omega⟩, rfl⟩
  refine ⟨t, flush1_4 t, ?_⟩
  rw [mem_blk1]
  obtain ⟨-, -, -, -, -, -, -, -, e0, e1⟩ := blockIdx1 t
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 1 ≤ (i 1).val ∧ (i 1).val < win1_4.index t (1 : Fin 2) * 1 + 1
    omega

/-- After its 20 points region 1's output column holds the finished projection, row by row. -/
theorem arr1 (c : Dev nD) (r : Fin 100000) :
    (dat1 (F := Ideal) V c).arrAt 4 cfg1.N (ix2 r (0 : Fin 1))
      = (∑ k : Fin 128, max (aggArr V c (ix2 r k) * scaleArr V c (ix2 r (0 : Fin 1))
            + biasArr V c (ix2 (0 : Fin 1) k)) 0 * weight2Arr V c (ix2 k (0 : Fin 1)))
          * scaleArr V c (ix2 r (0 : Fin 1)) :=
  congrFun ((dat1 (F := Ideal) V c).arrAt_eq_of_cover 4
    (finish (aggArr V c) (scaleArr V c) (biasArr V c) (weight2Arr V c))
    (fun t _ => flushed1 V c t) cover1) (ix2 r (0 : Fin 1))

end Regions

end Cert.KernelIdeal.RegionValue

end
-- ==== Proof.KernelValue.lean ====
/-
  What the kernel program's result buffer holds, index by index, as the arrangement `Gcn.K` of the specification.

  Walking back from the result: the last stretch of host operations is an aggregation layer over the second region's
  one-column output, scaled by the node weight, plus the bias. The second region's output at row r is the projection of
  the rectified, scaled and biased first aggregate at r, scaled by the node weight. The first aggregate is an aggregation
  layer over the first region's output, which at (r, k) is the projected features at (r, k) scaled by the node weight.
  The edge words and the node weights are the ones the first region found; the features, weights and biases the launch
  memory's.
-/
import proofs.«126473_j7997229105851_1_alg».proof.Proof.KernelWalk
import proofs.«126473_j7997229105851_1_alg».proof.Proof.KernelHost
import proofs.«126473_j7997229105851_1_alg».proof.Proof.Regions
import proofs.«126473_j7997229105851_1_alg».proof.Proof.Spec
import proofs.«126473_j7997229105851_1_alg».proof.Proof.LibKeepdims
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.KVal

open Cert.KernelIdeal Cert.KernelIdeal.Gen Idealize.ShloMosaic Idealize.ShloMosaic.TcCoe Idealize.ShloMosaic.StableHlo
  Idealize.ShloMosaic.ValueIdx

variable (m : (ℓ : Loc nD τ sig) → Buf (Elt Ideal) ℓ) (ρ : Dev nD → PrngReg)

/-- The edge words and the node weight column as the first region finds them. -/
abbrev srcA (c : Dev nD) : IVec S1700000 32 := W3 m ρ c (Proc.devRef .tc main_v3)
abbrev dstA (c : Dev nD) : IVec S1700000 32 := W3 m ρ c (Proc.devRef .tc main_v6)
abbrev dinvA (c : Dev nD) : FVec Ideal S100000x1 .f32 := W3 m ρ c (Proc.devRef .tc main_v15)
/-- The first region's output array and the second's. -/
abbrev out0A (c : Dev nD) : FVec Ideal S100000x128 .f32 := (dat0 (V3 m ρ) c).arrAt 3 cfg0.N
abbrev out1A (c : Dev nD) : FVec Ideal S100000x1 .f32 := (dat1 (V5 m ρ) c).arrAt 4 cfg1.N

set_option maxHeartbeats 2000000 in
/-- The second region's first input: the first aggregation layer over the first region's output. -/
theorem v26_apply (c : Dev nD) (n : Fin 100000) (k : Fin 128) :
    (W5 m ρ c (Proc.devRef .tc main_v26) : FVec Ideal S100000x128 .f32) (ix2 n k)
      = 0 + ∑ e ∈ Gcn.inEdges (fun e => dstA m ρ c (ix1 e)) n, out0A m ρ c (ix2 (Gcn.rowOf (srcA m ρ c (ix1 e))) k) := by
  dsimp only [W5, hostOps1]
  after_results
  rw [W4_v6, W4_v3, W4_v16]
  exact Gcn.Host.agg_apply _ rfl rfl rfl rfl _ rfl rfl rfl rfl rfl rfl _ _ _ (out0A m ρ c) (srcA m ρ c) (dstA m ρ c) n k

set_option maxHeartbeats 2000000 in
/-- The bias row. -/
theorem v27_apply (c : Dev nD) (k : Fin 128) :
    (W5 m ρ c (Proc.devRef .tc main_v27) : FVec Ideal S1x128 .f32) (ix2 (0 : Fin 1) k) = m ((c : Thread nD τ).loc main_arg3) (ix1 k) := by
  dsimp only [W5, hostOps1]
  after_results
  rw [W4_arg3, W3_arg3]
  refine shapeCast_apply _ shapeCasts_S128_S1x128 (ix2 (0 : Fin 1) k) (ix1 k) ?_
  rw [Shape.rowMajor_val_two, Shape.rowMajor_val_one]
  show k.val = 0 * 128 + k.val
  omega

set_option maxHeartbeats 2000000 in
/-- The result: the second aggregation layer over the second region's output, the tail after it. -/
theorem v43_apply (c : Dev nD) (n : Fin 100000) :
    (W7 m ρ c (Proc.devRef .tc main_v43) : FVec Ideal S100000 .f32) (ix1 n)
      = (0 + ∑ e ∈ Gcn.inEdges (fun e => dstA m ρ c (ix1 e)) n, out1A m ρ c (ix2 (Gcn.rowOf (srcA m ρ c (ix1 e))) (0 : Fin 1)))
          * dinvA m ρ c (ix2 n (0 : Fin 1)) + m ((c : Thread nD τ).loc main_arg5) (ix1 (0 : Fin 1)) := by
  dsimp only [W7, hostOps2]
  after_results
  rw [W6_v6, W6_v3, W6_v28, W6_v15, W6_arg5]
  refine (Gcn.Host.tail_apply _ _ _ _ (dinvA m ρ c) (m ((c : Thread nD τ).loc main_arg5)) n).trans ?_
  rw [Gcn.Host.agg_apply _ rfl rfl rfl rfl _ rfl rfl rfl rfl rfl rfl _ _ _ (out1A m ρ c) (srcA m ρ c) (dstA m ρ c) n (0 : Fin 1)]

/-! ## The arguments at their literal types, and the specification's arguments -/

abbrev a0 (c : Dev nD) : FVec Ideal S100000x128 .f32 := m ((c : Thread nD τ).loc main_arg0)
abbrev a2 (c : Dev nD) : FVec Ideal S128x128 .f32 := m ((c : Thread nD τ).loc main_arg2)
abbrev a3 (c : Dev nD) : FVec Ideal S128 .f32 := m ((c : Thread nD τ).loc main_arg3)
abbrev a4 (c : Dev nD) : FVec Ideal S128x1 .f32 := m ((c : Thread nD τ).loc main_arg4)
abbrev a5 (c : Dev nD) : FVec Ideal S1 .f32 := m ((c : Thread nD τ).loc main_arg5)

abbrev fX (c : Dev nD) : Fin 100000 → Fin 128 → EReal := fun r j => a0 m c (ix2 r j)
abbrev fW1 (c : Dev nD) : Fin 128 → Fin 128 → EReal := fun j k => a2 m c (ix2 j k)
abbrev fB1 (c : Dev nD) : Fin 128 → EReal := fun k => a3 m c (ix1 k)
abbrev fW2 (c : Dev nD) : Fin 128 → EReal := fun k => a4 m c (ix2 k (0 : Fin 1))
abbrev fB2 (c : Dev nD) : EReal := a5 m c (ix1 (0 : Fin 1))
abbrev fdinv (c : Dev nD) : Fin 100000 → EReal := fun r => dinvA m ρ c (ix2 r (0 : Fin 1))
abbrev fdst (c : Dev nD) : Fin 1700000 → BitVec 32 := fun e => dstA m ρ c (ix1 e)
abbrev fsrc (c : Dev nD) : Fin 1700000 → Fin 100000 := fun e => Gcn.rowOf (srcA m ρ c (ix1 e))

/-! ## The regions' outputs and the chain between them -/

/-- The first region's output at (r, k): the projected features scaled by the node weight. -/
theorem out0_apply (c : Dev nD) (r : Fin 100000) (k : Fin 128) :
    out0A m ρ c (ix2 r k) = Gcn.h1s (fX m c) (fW1 m c) (fdinv m ρ c) r k := by
  unfold Gcn.h1s
  refine (Cert.KernelIdeal.RegionValue.arr0 (V3 m ρ) c r k).trans ?_
  have e0 : Cert.KernelIdeal.RegionValue.featArr (V3 m ρ) c = a0 m c := W3_arg0 m ρ c
  have e2 : Cert.KernelIdeal.RegionValue.weightArr (V3 m ρ) c = a2 m c := W3_arg2 m ρ c
  rw [e0, e2]

/-- The second region's first input at (n, k): the first aggregate. -/
theorem agg_eq (c : Dev nD) (n : Fin 100000) (k : Fin 128) :
    Cert.KernelIdeal.RegionValue.aggArr (V5 m ρ) c (ix2 n k)
      = Gcn.agg1 (fX m c) (fW1 m c) (fdinv m ρ c) (fdst m ρ c) (fsrc m ρ c) n k := by
  unfold Gcn.agg1
  refine (v26_apply m ρ c n k).trans ?_
  exact congrArg (fun s : EReal => 0 + s) (Finset.sum_congr rfl fun e _ => out0_apply m ρ c _ k)

/-- The second region's output at row r. -/
theorem out1_apply (c : Dev nD) (r : Fin 100000) :
    out1A m ρ c (ix2 r (0 : Fin 1))
      = Gcn.h2s (fX m c) (fW1 m c) (fB1 m c) (fW2 m c) (fdinv m ρ c) (fdst m ρ c) (fsrc m ρ c) r := by
  unfold Gcn.h2s Gcn.act
  refine (Cert.KernelIdeal.RegionValue.arr1 (V5 m ρ) c r).trans ?_
  have es : Cert.KernelIdeal.RegionValue.scaleArr (V5 m ρ) c = dinvA m ρ c := W5_v15 m ρ c
  have ew : Cert.KernelIdeal.RegionValue.weight2Arr (V5 m ρ) c = a4 m c := W5_arg4 m ρ c
  rw [es, ew]
  refine congrArg (fun s : EReal => s * dinvA m ρ c (ix2 r (0 : Fin 1))) (Finset.sum_congr rfl fun k _ => ?_)
  have eb : Cert.KernelIdeal.RegionValue.biasArr (V5 m ρ) c (ix2 (0 : Fin 1) k) = a3 m c (ix1 k) := v27_apply m ρ c k
  rw [agg_eq, eb]

/-- THE KERNEL PROGRAM'S RESULT at node n is the specification's first arrangement. -/
theorem kernel_value (c : Dev nD) (n : Fin 100000) :
    (W7 m ρ c (Proc.devRef .tc main_v43) : FVec Ideal S100000 .f32) (ix1 n)
      = Gcn.K (fX m c) (fW1 m c) (fB1 m c) (fW2 m c) (fB2 m c) (fdinv m ρ c) (fdst m ρ c) (fsrc m ρ c) n := by
  unfold Gcn.K Gcn.agg2
  refine (v43_apply m ρ c n).trans ?_
  exact congrArg (fun s : EReal => (0 + s) * dinvA m ρ c (ix2 n (0 : Fin 1)) + a5 m c (ix1 (0 : Fin 1)))
    (Finset.sum_congr rfl fun e _ => out1_apply m ρ c _)

end Cert.KernelIdeal.KVal

end
-- ==== Proof.Agree.lean ====
/-
  The two programs compute the edge words and the node weights by the same host operations on the same argument, the
  edge index array: the sources and the destinations are a row of it followed by the self loops 0, 1, …, N - 1; the
  degree is the scatter-add of ones over the destinations; the node weight is the reciprocal square root of the degree
  where that is positive and 0 elsewhere. So what the kernel program holds in those buffers when its first region is
  entered is what the reference's stages compute.
-/
import proofs.«126473_j7997229105851_1_alg».proof.Proof.KernelWalk
import proofs.«126473_j7997229105851_1_alg».proof.Proof.RefRead
import proofs.«126473_j7997229105851_1_alg».proof.Proof.LibKeepdims
import Idealize.ShloMosaic.Lib.ValueIdx
import Idealize.ShloMosaic.Lib.IdealHost

set_option maxRecDepth 16384

noncomputable section

namespace Cert.KernelIdeal.KVal

open Cert.KernelIdeal Cert.KernelIdeal.Gen Idealize.ShloMosaic Idealize.ShloMosaic.TcCoe Idealize.ShloMosaic.StableHlo
  Idealize.ShloMosaic.ValueIdx

variable {F : FTy → Type} [FloatOps F]
variable (m : (ℓ : Loc nD τ sig) → Buf (Elt F) ℓ) (ρ : Dev nD → PrngReg)

set_option maxHeartbeats 1000000 in
/-- The source words. -/
theorem src_agree (c : Dev nD) :
    W3 m ρ c (Proc.devRef .tc main_v3) = Cert.ReferenceIdeal.ReadP.val_main_v3 (F := F) (m ((c : Thread nD τ).loc main_arg1)) := by
  dsimp only [W3, W2, W1, hostOps0_2, hostOps0_1, hostOps0]
  after_results
  rfl

set_option maxHeartbeats 1000000 in
/-- The destination words. -/
theorem dst_agree (c : Dev nD) :
    W3 m ρ c (Proc.devRef .tc main_v6) = Cert.ReferenceIdeal.ReadP.val_main_v6 (F := F) (m ((c : Thread nD τ).loc main_arg1)) := by
  dsimp only [W3, W2, W1, hostOps0_2, hostOps0_1, hostOps0]
  after_results
  rfl

/-! ## The node weights, stretch by stretch -/

set_option maxHeartbeats 1000000 in
/-- After the first stretch: the test "the degree is positive", … -/
theorem pos_agree (c : Dev nD) :
    W1 m ρ c (Proc.devRef .tc main_v12) = Cert.ReferenceIdeal.ReadP.val_main_v13 (F := F) (m ((c : Thread nD τ).loc main_arg1)) := by
  dsimp only [W1, hostOps0]
  after_results
  rfl

set_option maxHeartbeats 1000000 in
/-- … the reciprocal square root of the degree, … -/
theorem rsqrt_agree (c : Dev nD) :
    W1 m ρ c (Proc.devRef .tc main_v13) = Cert.ReferenceIdeal.ReadP.val_main_v14 (F := F) (m ((c : Thread nD τ).loc main_arg1)) := by
  dsimp only [W1, hostOps0]
  after_results
  rfl

set_option maxHeartbeats 1000000 in
/-- … and the zero the weight takes where the degree is not positive. -/
theorem zero_agree (c : Dev nD) :
    W1 m ρ c (Proc.devRef .tc main_cst_2) = Cert.ReferenceIdeal.ReadP.val_main_cst_2 (F := F) := by
  dsimp only [W1, hostOps0]
  after_results
  rfl

set_option maxHeartbeats 1000000 in
/-- The second stretch selects between them, entry by entry. -/
theorem weight_read (c : Dev nD) (r : Fin 100000) :
    (W2 m ρ c (Proc.devRef .tc main_v14) : FVec F S100000 .f32) (ix1 r)
      = Scalar.select ((W1 m ρ c (Proc.devRef .tc main_v12) : IVec S100000 1) (ix1 r))
          ((W1 m ρ c (Proc.devRef .tc main_v13) : FVec F S100000 .f32) (ix1 r))
          ((W1 m ρ c (Proc.devRef .tc main_cst_2) : FVec F S_ .f32) ix0) := by
  dsimp only [W2]
  generalize W1 m ρ c = V1
  dsimp only [hostOps0_1]
  after_results
  simp only [TRef.ofBuf, TRef.toBuf, cast_eq]
  rw [select_apply, broadcastInDim_scalar_apply]
  rfl

set_option maxHeartbeats 1000000 in
/-- The node weight column at (r, 0) is the node weight vector at r. -/
theorem v15_step (c : Dev nD) (r : Fin 100000) :
    W3 m ρ c (Proc.devRef .tc main_v15) (ix2 r (0 : Fin 1)) = W2 m ρ c (Proc.devRef .tc main_v14) (ix1 r) := by
  dsimp only [W3]
  generalize W2 m ρ c = V2
  dsimp only [hostOps0_2]
  after_results
  exact Idealize.ShloMosaic.Keepdims.shapeCast_a_a1_apply _ shapeCasts_S100000_S100000x1 r (0 : Fin 1)

/-- The node weights, kept as a column in the kernel program, at row r. -/
theorem dinv_agree (c : Dev nD) (r : Fin 100000) :
    W3 m ρ c (Proc.devRef .tc main_v15) (ix2 r (0 : Fin 1))
      = Cert.ReferenceIdeal.ReadP.val_main_v15 (F := F) (m ((c : Thread nD τ).loc main_arg1)) (ix1 r) := by
  rw [v15_step, weight_read, pos_agree, rsqrt_agree, zero_agree]
  rfl

end Cert.KernelIdeal.KVal

end
-- ==== Proof.LibGatherVec.lean ====
import Idealize.ShloMosaic.PureOps.Ideal
import Idealize.ShloMosaic.Lib.ValueIdx

/-!
  The gather of single entries of a vector: operand [N], start indices [n, 1], result [n]. The operand's one axis is
  collapsed and named by the one component of the index vector; the result has no offset axis. Result entry j is the
  operand at start index j, read signed and clamped into [0, N - 1]. Stated for any extents N > 0, n, any word width
  and any element type.
-/

noncomputable section

open scoped BigOperators

namespace Cert.LibGatherVec

open Idealize.ShloMosaic Idealize.ShloMosaic.ValueIdx

/-- The gather of single entries: operand [N], start indices [n,1], result [n]; result entry j is the operand at start
    index j, read signed and clamped into [0, N - 1]. The operand's only axis is collapsed (slice size 1), so its
    coordinate is the clamped start alone: there is neither a batching nor an offset coordinate to add. -/
theorem gather_vec_apply {α : Type} {N n w : Nat} (hN : 0 < N) (d : GatherDims ⟨1, ![N]⟩ ⟨2, ![n, 1]⟩ ⟨1, ![n]⟩)
    (hoff : d.offsetDims = []) (hcoll : d.collapsedSliceDims = [0]) (hob : d.operandBatchingDims = [])
    (hsb : d.startIndicesBatchingDims = []) (hsim : d.startIndexMap = [0]) (hivd : d.indexVectorDim = 1)
    (x : (⟨1, ![N]⟩ : Shape).Idx → α) (idx : IVec ⟨2, ![n, 1]⟩ w) (j : Fin n) :
    Host.gather d x idx (ix1 j) = x (ix1 (⟨min (idx (ix2 j (0 : Fin 1))).toInt.toNat (N - 1), by omega⟩ : Fin N)) := by
  unfold Host.gather
  congr 1
  funext a
  apply Fin.ext
  have hb : ∀ a : Fin 1, a ∉ d.operandBatchingDims := fun a => by rw [hob]; exact List.not_mem_nil
  -- every axis of the result is a batch axis, and the result has the one axis 0
  have ebatch : ∀ X : Fin 1, X ∈ d.batchDims → ((ix1 j : (⟨1, ![n]⟩ : Shape).Idx) X).val = j.val := by
    intro X hX
    match X with
    | ⟨0, _⟩ => rfl
  match a with
  | ⟨0, _⟩ =>
    -- the collapsed axis: the clamped start, no batching and no offset coordinate
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show d.start (ix1 j) idx 0 + d.batchCoord (ix1 j) 0 + d.offCoord (ix1 j) 0
      = min (idx (ix2 j (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 j (0 : Fin 1))).toInt.toNat (N - 1)
    rw [hsl]
    congr 3
    congr 1
    funext b
    apply Fin.ext
    match b with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (0 : Fin 1) d.startIndexMap = 0
      rw [hsim]; simp

end Cert.LibGatherVec

end
-- ==== Proof.RefValue.lean ====
/-
  The reference's result, node by node, is the specification's message-scaling arrangement `Gcn.R`.

  The reference is a two-layer graph convolution written with gathers and scatter-adds. Per layer: project the node
  features, gather the projected row of every edge's source, scale it by the edge weight dinv[src] * dinv[dst], and
  scatter-add the scaled rows into a zero array at the edges' destination words; then add the bias (and, after the
  first layer, rectify). Read at an index, a gather with start word w reads row `Gcn.rowOf w` (a negative word is
  wrapped by adding N, the result is clamped into [0, N - 1]), and a scatter-add into zero at node n is 0 plus the
  sum of the updates over the edges whose raw destination word, read signed, is n: the set `Gcn.inEdges`. The second
  layer recomputes the edge words and the node weight from the same input by the same operations, so they are the
  first layer's. Chaining these readings from the result inward gives `Gcn.R` with the node weight, the raw destination
  words and the gathered rows the program computes; the edge lists, the degree and the node weight are never opened.
-/
import proofs.«126473_j7997229105851_1_alg».proof.Proof.RefRead
import proofs.«126473_j7997229105851_1_alg».proof.Proof.Spec
import proofs.«126473_j7997229105851_1_alg».proof.Proof.LibGatherRows
import proofs.«126473_j7997229105851_1_alg».proof.Proof.LibScatterAddRows
import proofs.«126473_j7997229105851_1_alg».proof.Proof.LibGatherVec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.ReadP Idealize.ShloMosaic Idealize.ShloMosaic.ValueIdx

/-! ## The index words

The second layer recomputes the edge lists, the degree and the node weight from the same input by the same operations,
so those values are the first layer's. A gather's start word is the edge word with a negative word wrapped by adding N;
clamping it into [0, N - 1] gives the row the specification calls `rowOf` of the edge word. -/

section Words
variable (x1 : (⟨S2x1600000, .i32⟩ : BufTy).Contents (Elt Ideal))

/-- The second layer's source words are the first layer's. -/
theorem v51_eq : val_main_v51 (F := Ideal) x1 = val_main_v3 (F := Ideal) x1 := rfl
/-- The second layer's destination words are the first layer's. -/
theorem v54_eq : val_main_v54 (F := Ideal) x1 = val_main_v6 (F := Ideal) x1 := rfl
/-- The second layer's node weight is the first layer's. -/
theorem v63_eq : val_main_v63 (F := Ideal) x1 = val_main_v15 (F := Ideal) x1 := rfl

/-- A wrapped word clamped into [0, N - 1] is the row of the unwrapped word. -/
theorem row_eq (w w' : BitVec 32) (h : w = Gcn.wrapw w') (p : min w.toInt.toNat (100000 - 1) < 100000) :
    (⟨min w.toInt.toNat (100000 - 1), p⟩ : Fin 100000) = Gcn.rowOf w' := by
  subst h; rfl

theorem v21_at (e : Fin 1700000) :
    val_main_v21 (F := Ideal) x1 (ix2 e (0 : Fin 1)) = Gcn.wrapw (val_main_v3 (F := Ideal) x1 (ix1 e)) := by
  rw [val_main_v21_apply, (show idx_main_v21 (ix2 e (0 : Fin 1)) = ix1 e from funext fun a => match a with | ⟨0, _⟩ => rfl), val_main_v20_apply, val_main_v17_apply, val_main_v19_apply,
    val_main_v16_apply, val_main_v18_apply, val_main_c_apply, val_main_c_3_apply]
  rfl

theorem v28_at (e : Fin 1700000) :
    val_main_v28 (F := Ideal) x1 (ix2 e (0 : Fin 1)) = Gcn.wrapw (val_main_v6 (F := Ideal) x1 (ix1 e)) := by
  rw [val_main_v28_apply, (show idx_main_v28 (ix2 e (0 : Fin 1)) = ix1 e from funext fun a => match a with | ⟨0, _⟩ => rfl), val_main_v27_apply, val_main_v24_apply, val_main_v26_apply,
    val_main_v23_apply, val_main_v25_apply, val_main_c_4_apply, val_main_c_5_apply]
  rfl

theorem v36_at (e : Fin 1700000) :
    val_main_v36 (F := Ideal) x1 (ix2 e (0 : Fin 1)) = Gcn.wrapw (val_main_v3 (F := Ideal) x1 (ix1 e)) := by
  rw [val_main_v36_apply, (show idx_main_v36 (ix2 e (0 : Fin 1)) = ix1 e from funext fun a => match a with | ⟨0, _⟩ => rfl), val_main_v35_apply, val_main_v32_apply, val_main_v34_apply,
    val_main_v31_apply, val_main_v33_apply, val_main_c_6_apply, val_main_c_7_apply]
  rfl

theorem v69_at (e : Fin 1700000) :
    val_main_v69 (F := Ideal) x1 (ix2 e (0 : Fin 1)) = Gcn.wrapw (val_main_v51 (F := Ideal) x1 (ix1 e)) := by
  rw [val_main_v69_apply, (show idx_main_v69 (ix2 e (0 : Fin 1)) = ix1 e from funext fun a => match a with | ⟨0, _⟩ => rfl), val_main_v68_apply, val_main_v65_apply, val_main_v67_apply,
    val_main_v64_apply, val_main_v66_apply, val_main_c_13_apply, val_main_c_14_apply]
  rfl

theorem v76_at (e : Fin 1700000) :
    val_main_v76 (F := Ideal) x1 (ix2 e (0 : Fin 1)) = Gcn.wrapw (val_main_v54 (F := Ideal) x1 (ix1 e)) := by
  rw [val_main_v76_apply, (show idx_main_v76 (ix2 e (0 : Fin 1)) = ix1 e from funext fun a => match a with | ⟨0, _⟩ => rfl), val_main_v75_apply, val_main_v72_apply, val_main_v74_apply,
    val_main_v71_apply, val_main_v73_apply, val_main_c_15_apply, val_main_c_16_apply]
  rfl

theorem v84_at (e : Fin 1700000) :
    val_main_v84 (F := Ideal) x1 (ix2 e (0 : Fin 1)) = Gcn.wrapw (val_main_v51 (F := Ideal) x1 (ix1 e)) := by
  rw [val_main_v84_apply, (show idx_main_v84 (ix2 e (0 : Fin 1)) = ix1 e from funext fun a => match a with | ⟨0, _⟩ => rfl), val_main_v83_apply, val_main_v80_apply, val_main_v82_apply,
    val_main_v79_apply, val_main_v81_apply, val_main_c_17_apply, val_main_c_18_apply]
  rfl

/-! The four gathers of single node weights. -/

theorem v22_at (e : Fin 1700000) :
    val_main_v22 (F := Ideal) x1 (ix1 e)
      = val_main_v15 (F := Ideal) x1 (ix1 (Gcn.rowOf (val_main_v3 (F := Ideal) x1 (ix1 e)))) := by
  unfold val_main_v22
  refine (Cert.LibGatherVec.gather_vec_apply (by omega) _ rfl rfl rfl rfl rfl rfl _ _ e).trans ?_
  rw [row_eq _ _ (v21_at x1 e)]

theorem v29_at (e : Fin 1700000) :
    val_main_v29 (F := Ideal) x1 (ix1 e)
      = val_main_v15 (F := Ideal) x1 (ix1 (Gcn.rowOf (val_main_v6 (F := Ideal) x1 (ix1 e)))) := by
  unfold val_main_v29
  refine (Cert.LibGatherVec.gather_vec_apply (by omega) _ rfl rfl rfl rfl rfl rfl _ _ e).trans ?_
  rw [row_eq _ _ (v28_at x1 e)]

theorem v70_at (e : Fin 1700000) :
    val_main_v70 (F := Ideal) x1 (ix1 e)
      = val_main_v63 (F := Ideal) x1 (ix1 (Gcn.rowOf (val_main_v51 (F := Ideal) x1 (ix1 e)))) := by
  unfold val_main_v70
  refine (Cert.LibGatherVec.gather_vec_apply (by omega) _ rfl rfl rfl rfl rfl rfl _ _ e).trans ?_
  rw [row_eq _ _ (v69_at x1 e)]

theorem v77_at (e : Fin 1700000) :
    val_main_v77 (F := Ideal) x1 (ix1 e)
      = val_main_v63 (F := Ideal) x1 (ix1 (Gcn.rowOf (val_main_v54 (F := Ideal) x1 (ix1 e)))) := by
  unfold val_main_v77
  refine (Cert.LibGatherVec.gather_vec_apply (by omega) _ rfl rfl rfl rfl rfl rfl _ _ e).trans ?_
  rw [row_eq _ _ (v76_at x1 e)]

/-- The first layer's edge weight: the node weights at the source row and at the destination row, multiplied. -/
theorem v30_at (e : Fin 1700000) :
    val_main_v30 (F := Ideal) x1 (ix1 e)
      = val_main_v15 (F := Ideal) x1 (ix1 (Gcn.rowOf (val_main_v3 (F := Ideal) x1 (ix1 e))))
        * val_main_v15 (F := Ideal) x1 (ix1 (Gcn.rowOf (val_main_v6 (F := Ideal) x1 (ix1 e)))) := by
  rw [val_main_v30_apply, v22_at, v29_at]; rfl

/-- The second layer's edge weight is the same product. -/
theorem v78_at (e : Fin 1700000) :
    val_main_v78 (F := Ideal) x1 (ix1 e)
      = val_main_v15 (F := Ideal) x1 (ix1 (Gcn.rowOf (val_main_v3 (F := Ideal) x1 (ix1 e))))
        * val_main_v15 (F := Ideal) x1 (ix1 (Gcn.rowOf (val_main_v6 (F := Ideal) x1 (ix1 e)))) := by
  rw [val_main_v78_apply, v70_at, v77_at, v51_eq, v54_eq, v63_eq]; rfl

/-- The scatters take the raw destination words. -/
theorem v42_at (e : Fin 1700000) :
    val_main_v42 (F := Ideal) x1 (ix2 e (0 : Fin 1)) = val_main_v6 (F := Ideal) x1 (ix1 e) := by
  rw [val_main_v42_apply, (show idx_main_v42 (ix2 e (0 : Fin 1)) = ix1 e from funext fun a => match a with | ⟨0, _⟩ => rfl)]
theorem v89_at (e : Fin 1700000) :
    val_main_v89 (F := Ideal) x1 (ix2 e (0 : Fin 1)) = val_main_v6 (F := Ideal) x1 (ix1 e) := by
  rw [val_main_v89_apply, (show idx_main_v89 (ix2 e (0 : Fin 1)) = ix1 e from funext fun a => match a with | ⟨0, _⟩ => rfl), v54_eq]

/-- The edge weight laid along the channels. -/
theorem v39_at (e : Fin 1700000) (k : Fin 128) :
    val_main_v39 (F := Ideal) x1 (ix2 e k) = val_main_v30 (F := Ideal) x1 (ix1 e) := by
  rw [val_main_v39_apply,
    show idx_main_v39 (ix2 e k) = ix2 e (0 : Fin 1) from funext fun a => match a with | ⟨0, _⟩ => rfl | ⟨1, _⟩ => rfl,
    val_main_v38_apply, (show idx_main_v38 (ix2 e (0 : Fin 1)) = ix1 e from funext fun a => match a with | ⟨0, _⟩ => rfl)]
theorem v86_at (e : Fin 1700000) :
    val_main_v86 (F := Ideal) x1 (ix2 e (0 : Fin 1)) = val_main_v78 (F := Ideal) x1 (ix1 e) := by
  rw [val_main_v86_apply, (show idx_main_v86 (ix2 e (0 : Fin 1)) = ix1 e from funext fun a => match a with | ⟨0, _⟩ => rfl)]

end Words

/-! ## The data as the specification reads them -/

/-- The features, row by row. -/
abbrev fX (x0 : (⟨S100000x128, .f32⟩ : BufTy).Contents (Elt Ideal)) : Fin Gcn.NN → Fin Gcn.CC → EReal := fun r j => x0 (ix2 r j)
/-- The first layer's weights. -/
abbrev fW1 (x2 : (⟨S128x128, .f32⟩ : BufTy).Contents (Elt Ideal)) : Fin Gcn.CC → Fin Gcn.CC → EReal := fun j k => x2 (ix2 j k)
/-- The first layer's bias. -/
abbrev fB1 (x3 : (⟨S128, .f32⟩ : BufTy).Contents (Elt Ideal)) : Fin Gcn.CC → EReal := fun k => x3 (ix1 k)
/-- The second layer's weights, one output channel. -/
abbrev fW2 (x4 : (⟨S128x1, .f32⟩ : BufTy).Contents (Elt Ideal)) : Fin Gcn.CC → EReal := fun k => x4 (ix2 k (0 : Fin 1))
/-- The node weight d^(-1/2). -/
abbrev fdinv (x1 : (⟨S2x1600000, .i32⟩ : BufTy).Contents (Elt Ideal)) : Fin Gcn.NN → EReal := fun r => val_main_v15 (F := Ideal) x1 (ix1 r)
/-- The raw destination words. -/
abbrev fdstw (x1 : (⟨S2x1600000, .i32⟩ : BufTy).Contents (Elt Ideal)) : Fin Gcn.EE → BitVec 32 := fun e => val_main_v6 (F := Ideal) x1 (ix1 e)
/-- The row a gather reads for an edge's source word. -/
abbrev fsIdx (x1 : (⟨S2x1600000, .i32⟩ : BufTy).Contents (Elt Ideal)) : Fin Gcn.EE → Fin Gcn.NN := fun e => Gcn.rowOf (val_main_v3 (F := Ideal) x1 (ix1 e))
/-- The row a gather reads for an edge's destination word. -/
abbrev fdIdx (x1 : (⟨S2x1600000, .i32⟩ : BufTy).Contents (Elt Ideal)) : Fin Gcn.EE → Fin Gcn.NN := fun e => Gcn.rowOf (val_main_v6 (F := Ideal) x1 (ix1 e))

section Layers
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x1, .f32⟩ : BufTy).Contents (Elt Ideal)) (x5 : (⟨S1, .f32⟩ : BufTy).Contents (Elt Ideal))

/-! ## The first layer -/

/-- The projection x W1 at (r, k). -/
theorem v7_at (r : Fin 100000) (k : Fin 128) :
    val_main_v7 (F := Ideal) x0 x2 (ix2 r k) = Gcn.h (fX x0) (fW1 x2) r k := by
  rw [val_main_v7_apply]
  unfold Gcn.h
  refine Finset.sum_congr rfl fun j _ => ?_
  rw [show lidx_main_v7 (ix2 r k) j = ix2 r j from funext fun a => match a with | ⟨0, _⟩ => rfl | ⟨1, _⟩ => rfl,
    show ridx_main_v7 (ix2 r k) j = ix2 j k from funext fun a => match a with | ⟨0, _⟩ => rfl | ⟨1, _⟩ => rfl]

/-- The gather of the projected rows: edge e reads the row of its source word. -/
theorem v37_at (e : Fin 1700000) (k : Fin 128) :
    val_main_v37 (F := Ideal) x0 x1 x2 (ix2 e k) = val_main_v7 (F := Ideal) x0 x2 (ix2 (fsIdx x1 e) k) := by
  unfold val_main_v37
  refine (Cert.LibGatherRows.gather_rows2_apply (by omega) _ rfl rfl rfl rfl rfl rfl _ _ e k).trans ?_
  rw [row_eq _ _ (v36_at x1 e)]

/-- The message of edge e in channel k: the projected source row times the edge weight. -/
theorem v40_at (e : Fin 1700000) (k : Fin 128) :
    val_main_v40 (F := Ideal) x0 x1 x2 (ix2 e k)
      = Gcn.h (fX x0) (fW1 x2) (fsIdx x1 e) k * Gcn.nrm (fdinv x1) (fsIdx x1) (fdIdx x1) e := by
  rw [val_main_v40_apply, v37_at, v7_at, v39_at, v30_at]; rfl

/-- The scatter-add into a zero array: node n receives the messages of the edges whose destination word is n. -/
theorem v43_at (n : Fin 100000) (k : Fin 128) :
    val_main_v43 (F := Ideal) x0 x1 x2 (ix2 n k)
      = 0 + ∑ e ∈ Gcn.inEdges (fdstw x1) n, Gcn.h (fX x0) (fW1 x2) (fsIdx x1 e) k * Gcn.nrm (fdinv x1) (fsIdx x1) (fdIdx x1) e := by
  unfold val_main_v43
  rw [Cert.LibScatterAddRows.scatterAdd_rows2_apply _ rfl rfl rfl rfl, val_main_v41_apply, val_main_cst_8_apply,
    Ideal.ofBits_def, Ideal.ofBits_zero_f32]
  have hs : (Finset.univ.filter fun j : Fin 1700000 => (val_main_v42 (F := Ideal) x1 (ix2 j (0 : Fin 1))).toInt = (n.val : ℤ))
      = Gcn.inEdges (fdstw x1) n := by
    unfold Gcn.inEdges
    exact Finset.filter_congr (fun e _ => by rw [v42_at])
  rw [hs]
  exact congrArg (fun t => (0 : EReal) + t) (Finset.sum_congr rfl fun e _ => v40_at x0 x1 x2 e k)

/-- The bias laid along the nodes. -/
theorem v45_at (n : Fin 100000) (k : Fin 128) : val_main_v45 (F := Ideal) x3 (ix2 n k) = x3 (ix1 k) := by
  rw [val_main_v45_apply,
    show idx_main_v45 (ix2 n k) = ix2 (0 : Fin 1) k from funext fun a => match a with | ⟨0, _⟩ => rfl | ⟨1, _⟩ => rfl,
    val_main_v44_apply,
    show idx_main_v44 (ix2 (0 : Fin 1) k) = ix1 k from funext fun a => match a with | ⟨0, _⟩ => rfl]

/-- The first layer before the rectifier. -/
theorem v46_at (n : Fin 100000) (k : Fin 128) :
    val_main_v46 (F := Ideal) x0 x1 x2 x3 (ix2 n k)
      = Gcn.o1 (fX x0) (fW1 x2) (fB1 x3) (fdinv x1) (fdstw x1) (fsIdx x1) (fdIdx x1) n k := by
  rw [val_main_v46_apply, v43_at, v45_at]; rfl

/-- The rectifier is the maximum with a zero array. -/
theorem v47_at (n : Fin 100000) (k : Fin 128) :
    val_main_v47 (F := Ideal) x0 x1 x2 x3 (ix2 n k)
      = Gcn.r1 (fX x0) (fW1 x2) (fB1 x3) (fdinv x1) (fdstw x1) (fsIdx x1) (fdIdx x1) n k := by
  rw [val_main_v47_apply, v46_at, val_main_call1_v0_apply, val_main_call1_cst_apply, Ideal.ofBits_def,
    Ideal.ofBits_zero_f32]; rfl

/-! ## The second layer -/

/-- The projection to one channel. -/
theorem v55_at (n : Fin 100000) :
    val_main_v55 (F := Ideal) x0 x1 x2 x3 x4 (ix2 n (0 : Fin 1))
      = Gcn.h2 (fX x0) (fW1 x2) (fB1 x3) (fW2 x4) (fdinv x1) (fdstw x1) (fsIdx x1) (fdIdx x1) n := by
  rw [val_main_v55_apply]
  unfold Gcn.h2
  refine Finset.sum_congr rfl fun k _ => ?_
  rw [show lidx_main_v55 (ix2 n (0 : Fin 1)) k = ix2 n k from funext fun a => match a with | ⟨0, _⟩ => rfl | ⟨1, _⟩ => rfl,
    show ridx_main_v55 (ix2 n (0 : Fin 1)) k = ix2 k (0 : Fin 1) from funext fun a => match a with | ⟨0, _⟩ => rfl | ⟨1, _⟩ => rfl,
    v47_at]

/-- The gather of the projected values: edge e reads the row of its source word. -/
theorem v85_at (e : Fin 1700000) :
    val_main_v85 (F := Ideal) x0 x1 x2 x3 x4 (ix2 e (0 : Fin 1))
      = val_main_v55 (F := Ideal) x0 x1 x2 x3 x4 (ix2 (fsIdx x1 e) (0 : Fin 1)) := by
  unfold val_main_v85
  refine (Cert.LibGatherRows.gather_rows2_apply (by omega) _ rfl rfl rfl rfl rfl rfl _ _ e (0 : Fin 1)).trans ?_
  rw [row_eq _ _ (v84_at x1 e), v51_eq]

/-- The second layer's message of edge e. -/
theorem v87_at (e : Fin 1700000) :
    val_main_v87 (F := Ideal) x0 x1 x2 x3 x4 (ix2 e (0 : Fin 1))
      = Gcn.h2 (fX x0) (fW1 x2) (fB1 x3) (fW2 x4) (fdinv x1) (fdstw x1) (fsIdx x1) (fdIdx x1) (fsIdx x1 e)
        * Gcn.nrm (fdinv x1) (fsIdx x1) (fdIdx x1) e := by
  rw [val_main_v87_apply, v85_at, v55_at, v86_at, v78_at]; rfl

/-- The second scatter-add into a zero array. -/
theorem v90_at (n : Fin 100000) :
    val_main_v90 (F := Ideal) x0 x1 x2 x3 x4 (ix2 n (0 : Fin 1))
      = 0 + ∑ e ∈ Gcn.inEdges (fdstw x1) n,
          Gcn.h2 (fX x0) (fW1 x2) (fB1 x3) (fW2 x4) (fdinv x1) (fdstw x1) (fsIdx x1) (fdIdx x1) (fsIdx x1 e)
            * Gcn.nrm (fdinv x1) (fsIdx x1) (fdIdx x1) e := by
  unfold val_main_v90
  rw [Cert.LibScatterAddRows.scatterAdd_rows2_apply _ rfl rfl rfl rfl, val_main_v88_apply, val_main_cst_19_apply,
    Ideal.ofBits_def, Ideal.ofBits_zero_f32]
  have hs : (Finset.univ.filter fun j : Fin 1700000 => (val_main_v89 (F := Ideal) x1 (ix2 j (0 : Fin 1))).toInt = (n.val : ℤ))
      = Gcn.inEdges (fdstw x1) n := by
    unfold Gcn.inEdges
    exact Finset.filter_congr (fun e _ => by rw [v89_at])
  rw [hs]
  exact congrArg (fun t => (0 : EReal) + t) (Finset.sum_congr rfl fun e _ => v87_at x0 x1 x2 x3 x4 e)

/-- The second bias laid along the nodes. -/
theorem v92_at (n : Fin 100000) : val_main_v92 (F := Ideal) x5 (ix2 n (0 : Fin 1)) = x5 (ix1 (0 : Fin 1)) := by
  rw [val_main_v92_apply,
    show idx_main_v92 (ix2 n (0 : Fin 1)) = ix2 (0 : Fin 1) (0 : Fin 1) from funext fun a => match a with | ⟨0, _⟩ => rfl | ⟨1, _⟩ => rfl,
    val_main_v91_apply,
    show idx_main_v91 (ix2 (0 : Fin 1) (0 : Fin 1)) = ix1 (0 : Fin 1) from funext fun a => match a with | ⟨0, _⟩ => rfl]

end Layers

/-- THE REFERENCE'S RESULT at node n is the specification's message-scaling arrangement, read with the node weight,
    the raw destination words and the gathered rows the program itself computes. -/
theorem ref_value (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x1, .f32⟩ : BufTy).Contents (Elt Ideal)) (x5 : (⟨S1, .f32⟩ : BufTy).Contents (Elt Ideal)) (n : Fin 100000) :
    val_main_v94 (F := Ideal) x0 x1 x2 x3 x4 x5 (ix1 n)
      = Gcn.R (fun r j => x0 (ix2 r j)) (fun j k => x2 (ix2 j k)) (fun k => x3 (ix1 k)) (fun k => x4 (ix2 k (0 : Fin 1))) (x5 (ix1 (0 : Fin 1)))
          (fun r => val_main_v15 (F := Ideal) x1 (ix1 r))
          (fun e => val_main_v6 (F := Ideal) x1 (ix1 e))
          (fun e => Gcn.rowOf (val_main_v3 (F := Ideal) x1 (ix1 e)))
          (fun e => Gcn.rowOf (val_main_v6 (F := Ideal) x1 (ix1 e)))
          n := by
  rw [val_main_v94_apply,
    show idx_main_v94 (ix1 n) = ix2 n (0 : Fin 1) from
      funext fun a => match a with | ⟨0, _⟩ => Fin.ext (Nat.div_one _) | ⟨1, _⟩ => rfl,
    val_main_v93_apply, v90_at, v92_at]
  rfl

end Cert.ReferenceIdeal.RefValue

end
-- ==== Proof.SpecLaw.lean ====
/-
  The two arrangements of the graph convolution agree where every term is a real number.
-/
import proofs.«126473_j7997229105851_1_alg».proof.Proof.Spec

noncomputable section

open scoped BigOperators

namespace Gcn

/-- A start word that names node n when read signed is not negative, so it is not wrapped, and n is inside the clamp's range:
    the gather reads row n. -/
theorem rowOf_of_toInt (w : BitVec 32) (n : Fin NN) (h : w.toInt = (n.val : ℤ)) : rowOf w = n := by
  -- read signed the word is n ≥ 0, so the signed test against zero fails
  have hs : w.slt 0#32 = false := by
    simp [BitVec.slt, h]
  -- hence the word is left as it is
  have hw : wrapw w = w := by
    simp [wrapw, Idealize.ShloMosaic.Scalar.select, Idealize.ShloMosaic.IntOp.cmpi, hs]
  apply Fin.ext
  show min (wrapw w).toInt.toNat (100000 - 1) = n.val
  rw [hw, h]
  have hn : n.val < 100000 := n.isLt
  simp only [Int.toNat_natCast]
  omega

/-- The f32 pattern of all zero bits denotes the extended real 0. -/
private theorem zero_pattern : Idealize.ShloMosaic.Ideal.ofBits .f32 0x00000000#32 = 0 := by
  simp [Idealize.ShloMosaic.Ideal.ofBits, Idealize.ShloMosaic.Ideal.ieee]

/-- The node weight is a real number whatever the degree is: the reciprocal square root of a positive real is real, of +∞ it
    is 0, and where the degree is not positive the weight is 0. -/
theorem weight_real (x : EReal) :
    ∃ r : ℝ, Idealize.ShloMosaic.Scalar.select (Idealize.ShloMosaic.FloatOps.cmpf (F := Idealize.ShloMosaic.Ideal) (φ := .f32) .ogt x
        (Idealize.ShloMosaic.Ideal.ofBits .f32 0x00000000#32)) (Idealize.ShloMosaic.Ideal.rsqrt x)
        (Idealize.ShloMosaic.Ideal.ofBits .f32 0x00000000#32) = (r : EReal) := by
  rw [zero_pattern]
  show ∃ r : ℝ, Idealize.ShloMosaic.Scalar.select (Idealize.ShloMosaic.Ideal.cmp .ogt x 0)
    (Idealize.ShloMosaic.Ideal.rsqrt x) 0 = (r : EReal)
  induction x using EReal.rec with
  | bot =>
    -- -∞ is not above 0: the weight is the constant 0
    exact ⟨0, by simp [Idealize.ShloMosaic.Scalar.select, Idealize.ShloMosaic.Ideal.cmp]⟩
  | top =>
    -- +∞ is above 0, and its reciprocal square root is 0
    exact ⟨0, by simp [Idealize.ShloMosaic.Scalar.select, Idealize.ShloMosaic.Ideal.cmp]⟩
  | coe r =>
    by_cases hr : 0 < r
    · -- a positive real: the weight is the real (√r)⁻¹
      refine ⟨(Real.sqrt r)⁻¹, ?_⟩
      have h1 : ¬ r < 0 := not_lt.mpr hr.le
      have h2 : r ≠ 0 := ne_of_gt hr
      simp [Idealize.ShloMosaic.Scalar.select, Idealize.ShloMosaic.Ideal.cmp, hr, h1, h2]
    · -- a real that is not positive: the weight is the constant 0
      exact ⟨0, by simp [Idealize.ShloMosaic.Scalar.select, Idealize.ShloMosaic.Ideal.cmp, hr]⟩

/-! ## Real numbers inside the extended reals

The sum, product and maximum of real numbers are real, and multiplication by a real number distributes over a finite sum
of real numbers. (On the extended reals at large the last fails: (⊤ + ⊥) * t and ⊤ * t + ⊥ * t differ for t < 0.) -/

theorem real_zero : ∃ c : ℝ, (0 : EReal) = (c : EReal) := ⟨0, rfl⟩

theorem real_add {x y : EReal} (hx : ∃ a : ℝ, x = (a : EReal)) (hy : ∃ b : ℝ, y = (b : EReal)) :
    ∃ c : ℝ, x + y = (c : EReal) := by
  obtain ⟨a, rfl⟩ := hx
  obtain ⟨b, rfl⟩ := hy
  exact ⟨a + b, (EReal.coe_add a b).symm⟩

theorem real_mul {x y : EReal} (hx : ∃ a : ℝ, x = (a : EReal)) (hy : ∃ b : ℝ, y = (b : EReal)) :
    ∃ c : ℝ, x * y = (c : EReal) := by
  obtain ⟨a, rfl⟩ := hx
  obtain ⟨b, rfl⟩ := hy
  exact ⟨a * b, (EReal.coe_mul a b).symm⟩

theorem real_max {x y : EReal} (hx : ∃ a : ℝ, x = (a : EReal)) (hy : ∃ b : ℝ, y = (b : EReal)) :
    ∃ c : ℝ, max x y = (c : EReal) := by
  rcases le_total x y with hxy | hxy
  · rw [max_eq_right hxy]; exact hy
  · rw [max_eq_left hxy]; exact hx

theorem real_sum {ι : Type*} (s : Finset ι) (f : ι → EReal) (hf : ∀ i ∈ s, ∃ a : ℝ, f i = (a : EReal)) :
    ∃ c : ℝ, ∑ i ∈ s, f i = (c : EReal) := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

/-- Among real numbers multiplication distributes over addition. -/
theorem add_mul_real {x y t : EReal} (hx : ∃ a : ℝ, x = (a : EReal)) (hy : ∃ b : ℝ, y = (b : EReal))
    (ht : ∃ c : ℝ, t = (c : EReal)) : (x + y) * t = x * t + y * t := by
  obtain ⟨a, rfl⟩ := hx
  obtain ⟨b, rfl⟩ := hy
  obtain ⟨c, rfl⟩ := ht
  rw [← EReal.coe_add, ← EReal.coe_mul, ← EReal.coe_mul, ← EReal.coe_mul, ← EReal.coe_add, add_mul]

/-- A real factor goes inside a finite sum of real numbers. -/
theorem sum_mul_real {ι : Type*} (s : Finset ι) (f : ι → EReal) (t : EReal)
    (hf : ∀ i ∈ s, ∃ a : ℝ, f i = (a : EReal)) (ht : ∃ c : ℝ, t = (c : EReal)) :
    (∑ i ∈ s, f i) * t = ∑ i ∈ s, f i * t := by
  classical
  induction s using Finset.induction_on with
  | empty => simp
  | insert a s ha ih =>
    have hs : ∀ i ∈ s, ∃ a : ℝ, f i = (a : EReal) := fun i hi => hf i (Finset.mem_insert_of_mem hi)
    rw [Finset.sum_insert ha, Finset.sum_insert ha,
      add_mul_real (hf a (Finset.mem_insert_self a s)) (real_sum s f hs) ht, ih hs]

/-- THE LAW. With real features, weights and biases and real node weights, and every edge landing on n having destination
    row n, scaling the nodes before and after each sum gives what scaling every message by its edge weight gives. -/
theorem K_eq_R (X : Fin NN → Fin CC → EReal) (W1 : Fin CC → Fin CC → EReal) (B1 : Fin CC → EReal)
    (W2 : Fin CC → EReal) (B2 : EReal) (dinv : Fin NN → EReal)
    (dstw : Fin EE → BitVec 32) (sIdx dIdx : Fin EE → Fin NN)
    (hX : ∀ r j, ∃ x : ℝ, X r j = (x : EReal)) (hW1 : ∀ j k, ∃ x : ℝ, W1 j k = (x : EReal))
    (hB1 : ∀ k, ∃ x : ℝ, B1 k = (x : EReal)) (hW2 : ∀ k, ∃ x : ℝ, W2 k = (x : EReal))
    (hd : ∀ r, ∃ x : ℝ, dinv r = (x : EReal))
    (hland : ∀ e n, (dstw e).toInt = (n.val : ℤ) → dIdx e = n) (n : Fin NN) :
    K X W1 B1 W2 B2 dinv dstw sIdx n = R X W1 B1 W2 B2 dinv dstw sIdx dIdx n := by
  -- an edge in the sum at m has destination row m, so its weight is dinv (source) * dinv m
  have mem : ∀ {m : Fin NN} {e : Fin EE}, e ∈ inEdges dstw m → dIdx e = m :=
    fun {m e} he => hland e m (Finset.mem_filter.1 he).2
  -- the projected features are real
  have rh : ∀ r k, ∃ a : ℝ, h X W1 r k = (a : EReal) :=
    fun r k => real_sum _ _ fun j _ => real_mul (hX r j) (hW1 j k)
  -- layer 1: the factor dinv m, constant over the sum at m, comes out of it
  have L1 : ∀ m k, act X W1 B1 dinv dstw sIdx m k = r1 X W1 B1 dinv dstw sIdx dIdx m k := by
    intro m k
    have key : (0 + ∑ e ∈ inEdges dstw m, h1s X W1 dinv (sIdx e) k) * dinv m
        = 0 + ∑ e ∈ inEdges dstw m, h X W1 (sIdx e) k * nrm dinv sIdx dIdx e := by
      rw [zero_add, zero_add,
        sum_mul_real _ (fun e => h1s X W1 dinv (sIdx e) k) _ (fun e _ => real_mul (rh (sIdx e) k) (hd (sIdx e))) (hd m)]
      refine Finset.sum_congr rfl fun e he => ?_
      unfold h1s nrm
      rw [mem he, mul_assoc]
      rfl
    unfold act r1 o1 agg1
    rw [key]
  -- the rectified layer is real
  have rr1 : ∀ m k, ∃ a : ℝ, r1 X W1 B1 dinv dstw sIdx dIdx m k = (a : EReal) := by
    intro m k
    unfold r1 o1
    exact real_max (real_add (real_add real_zero
      (real_sum _ _ fun e _ => real_mul (rh (sIdx e) k) (real_mul (hd (sIdx e)) (hd (dIdx e))))) (hB1 k)) real_zero
  -- so is its projection to one channel
  have rh2 : ∀ m, ∃ a : ℝ, h2 X W1 B1 W2 dinv dstw sIdx dIdx m = (a : EReal) :=
    fun m => real_sum _ _ fun k _ => real_mul (rr1 m k) (hW2 k)
  have L2 : ∀ m, h2s X W1 B1 W2 dinv dstw sIdx m = h2 X W1 B1 W2 dinv dstw sIdx dIdx m * dinv m := by
    intro m
    unfold h2s h2
    simp only [L1]
  -- layer 2: the same step once more
  have key : (0 + ∑ e ∈ inEdges dstw n, h2s X W1 B1 W2 dinv dstw sIdx (sIdx e)) * dinv n
      = 0 + ∑ e ∈ inEdges dstw n, h2 X W1 B1 W2 dinv dstw sIdx dIdx (sIdx e) * nrm dinv sIdx dIdx e := by
    rw [zero_add, zero_add,
      sum_mul_real _ (fun e => h2s X W1 B1 W2 dinv dstw sIdx (sIdx e)) _
        (fun e _ => by rw [L2]; exact real_mul (rh2 (sIdx e)) (hd (sIdx e))) (hd n)]
    refine Finset.sum_congr rfl fun e he => ?_
    rw [L2, nrm, mem he, mul_assoc]
  unfold K R agg2
  rw [key]

end Gcn

end
-- ==== Proof.Finite.lean ====
/-
  The finiteness precondition, read back: it holds only where every entry of every float input is a real number.

  The precondition tests |x| < +∞ at each entry of a float argument, takes the conjunction over all the entries of that
  argument, and takes the conjunction of the five results. A conjunction of one-bit words is 1 only where every one of them
  is 1, so the test holds at every entry. On the extended reals |x| = max x (-x), which is +∞ at both infinities; so an x
  that passes the test is neither of them.
-/
import proofs.«126473_j7997229105851_1_alg».proof.Pre_finite_inputs
import Idealize.ShloMosaic.PureOps.Ideal
import Idealize.ShloMosaic.Lib.ReduceAll
import Idealize.ShloMosaic.Lib.ValueIdx

noncomputable section

namespace Cert.Finite

/-- The scalar shape has one index. -/
instance : Subsingleton Cert.Pre_finite_inputs.S_.Idx := ⟨fun a b => funext fun d => d.elim0⟩

open Idealize.ShloMosaic in
/-- The f32 pattern with exponent all ones and significand zero denotes +∞. -/
theorem inf_pattern : Ideal.ofBits .f32 0x7F800000#32 = ⊤ := by
  simp [Ideal.ofBits, Ideal.ieee]

open Idealize.ShloMosaic in
/-- One entry: an extended real whose absolute value is below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [inf_pattern] at h
  induction x using EReal.rec with
  | bot =>
    -- |-∞| = +∞ is not below +∞
    simp [Ideal.cmp] at h
  | top =>
    -- |+∞| = +∞ is not below +∞
    simp [Ideal.cmp] at h
  | coe r => exact ⟨r, rfl⟩

open Cert.Pre_finite_inputs Idealize.ShloMosaic in
/-- Where the finiteness precondition holds, every entry of the features, of the two weight arrays and of the first bias
    is a real number. -/
theorem real_of_pre [Cert.Pre_finite_inputs.Facts] (a0 : FVec Ideal S100000x128 .f32) (a1 : IVec S2x1600000 32) (a2 : FVec Ideal S128x128 .f32) (a3 : FVec Ideal S128 .f32) (a4 : FVec Ideal S128x1 .f32) (a5 : FVec Ideal S1 .f32)
    (h : Cert.Pre_finite_inputs.fn (F := Ideal) a0 a1 a2 a3 a4 a5 = fun _ => 1#1) :
    (∀ i, ∃ x : ℝ, a0 i = (x : EReal)) ∧ (∀ i, ∃ x : ℝ, a2 i = (x : EReal)) ∧ (∀ i, ∃ x : ℝ, a3 i = (x : EReal)) ∧ (∀ i, ∃ x : ℝ, a4 i = (x : EReal)) := by
  -- the predicate's one result word is 1
  have h0 := congrFun h ValueIdx.ix0
  dsimp only [Cert.Pre_finite_inputs.fn, Cert.Pre_finite_inputs.fn_part1, Idealize.ShloMosaic.andi] at h0
  -- a conjunction that is 1 has every conjunct 1: one conjunct per float argument
  obtain ⟨h1, _⟩ := IntOp.andi_eq_one.1 h0
  obtain ⟨h2, e4⟩ := IntOp.andi_eq_one.1 h1
  obtain ⟨h3, e3⟩ := IntOp.andi_eq_one.1 h2
  obtain ⟨e0, e2⟩ := IntOp.andi_eq_one.1 h3
  -- each conjunct is a conjunction over all the entries of its argument, so the test holds at every entry
  exact ⟨fun i => real_of_abs_lt_inf (a0 i) (Host.reduce_andi_all _ _ _ _ _ e0 i),
    fun i => real_of_abs_lt_inf (a2 i) (Host.reduce_andi_all _ _ _ _ _ e2 i),
    fun i => real_of_abs_lt_inf (a3 i) (Host.reduce_andi_all _ _ _ _ _ e3 i),
    fun i => real_of_abs_lt_inf (a4 i) (Host.reduce_andi_all _ _ _ _ _ e4 i)⟩

end Cert.Finite

end
-- ==== Proof.Bridge.lean ====
/-
  The five claims. The frames of the two kernel programs are the generated ones; the reference's frame is its run with the
  result dropped; the idealization rewrote nothing. For the equivalence both runs are posted at ONE array: the kernel
  program's result buffer. That the reference's result term is that array is, index by index: the reference is the
  specification's second arrangement, the kernel program its first, over the same features, weights, biases, edge words and
  node weights once the arguments agree; the precondition makes the features, weights and first bias real numbers, the
  node weight is real whatever the degree, an edge landing on node n has destination row n; so the two arrangements agree.
-/
import proofs.«126473_j7997229105851_1_alg».proof.Defs
import proofs.«126473_j7997229105851_1_alg».proof.Proof.Gen.Kernel.Frame
import proofs.«126473_j7997229105851_1_alg».proof.Proof.Gen.KernelIdeal.Frame
import proofs.«126473_j7997229105851_1_alg».proof.Proof.Gen.ReferenceIdeal
import proofs.«126473_j7997229105851_1_alg».proof.Proof.Gen.Pre_finite_inputs
import proofs.«126473_j7997229105851_1_alg».proof.Proof.KernelRun
import proofs.«126473_j7997229105851_1_alg».proof.Proof.KernelValue
import proofs.«126473_j7997229105851_1_alg».proof.Proof.Agree
import proofs.«126473_j7997229105851_1_alg».proof.Proof.RefRun
import proofs.«126473_j7997229105851_1_alg».proof.Proof.RefRead
import proofs.«126473_j7997229105851_1_alg».proof.Proof.RefValue
import proofs.«126473_j7997229105851_1_alg».proof.Proof.SpecLaw
import proofs.«126473_j7997229105851_1_alg».proof.Proof.Finite

set_option maxRecDepth 16384

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)
theorem preserves : Cert.preserves_Kernel_KernelIdeal := trivial

open Cert.ReferenceIdeal Cert.ReferenceIdeal.ReadP in
/-- The reference's node weight at row r is a real number: it is the weight formula of the degree at r. -/
theorem dinv_real (x1 : (⟨S2x1600000, .i32⟩ : BufTy).Contents (Elt Ideal)) (r : Fin 100000) :
    ∃ x : ℝ, val_main_v15 (F := Ideal) x1 (ix1 r) = (x : EReal) := by
  rw [val_main_v15_apply, val_main_v13_apply, val_main_v14_apply, val_main_call0_v1_apply, val_main_call0_v0_apply,
    val_main_cst_2_apply, val_main_v12_apply, val_main_cst_1_apply]
  simp only [Ideal.ofBits_def, Ideal.hostUnary_rsqrt_def]
  exact Gcn.weight_real (val_main_v11 (F := Ideal) x1 (ix1 r))

open Cert.KernelIdeal.KVal Cert.ReferenceIdeal.ReadP in
/-- The reference's result term is the kernel program's result buffer. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.KernelIdeal.nD) :
    Cert.ReferenceIdeal.ValueP.res_main_v94 (F := Ideal) m' c
      = Cert.KernelIdeal.Gen.W7 m ρ c (Proc.devRef .tc Cert.KernelIdeal.main_v43) := by
  obtain ⟨h0, h1, h2, h3, h4, h5⟩ := hagree c
  rw [val_main_v94_eq, h0, h1, h2, h3, h4, h5]
  funext i
  obtain ⟨n, rfl⟩ : ∃ n : Fin 100000, i = ix1 n := ⟨i 0, eq_ix1 i⟩
  refine (Cert.ReferenceIdeal.RefValue.ref_value _ _ _ _ _ _ n).trans ?_
  refine Eq.trans ?_ (kernel_value m ρ c n).symm
  have ed : fdinv m ρ c = fun r => val_main_v15 (F := Ideal) (m ((c.tc : Thread Cert.KernelIdeal.nD Cert.KernelIdeal.τ).loc Cert.KernelIdeal.main_arg1)) (ix1 r) :=
    funext fun r => dinv_agree m ρ c r
  have et : fdst m ρ c = fun e => val_main_v6 (F := Ideal) (m ((c.tc : Thread Cert.KernelIdeal.nD Cert.KernelIdeal.τ).loc Cert.KernelIdeal.main_arg1)) (ix1 e) :=
    funext fun e => congrFun (dst_agree m ρ c) (ix1 e)
  have es : fsrc m ρ c = fun e => Gcn.rowOf (val_main_v3 (F := Ideal) (m ((c.tc : Thread Cert.KernelIdeal.nD Cert.KernelIdeal.τ).loc Cert.KernelIdeal.main_arg1)) (ix1 e)) :=
    funext fun e => congrArg Gcn.rowOf (congrFun (src_agree m ρ c) (ix1 e))
  rw [ed, et, es]
  obtain ⟨r0, r2, r3, r4⟩ := Cert.Finite.real_of_pre _ _ _ _ _ _ (hpre c)
  refine Eq.symm ?_
  exact Gcn.K_eq_R (fX m c) (fW1 m c) (fB1 m c) (fW2 m c) (fB2 m c)
    (fun r => val_main_v15 (F := Ideal) (m ((c.tc : Thread Cert.KernelIdeal.nD Cert.KernelIdeal.τ).loc Cert.KernelIdeal.main_arg1)) (ix1 r))
    (fun e => val_main_v6 (F := Ideal) (m ((c.tc : Thread Cert.KernelIdeal.nD Cert.KernelIdeal.τ).loc Cert.KernelIdeal.main_arg1)) (ix1 e))
    (fun e => Gcn.rowOf (val_main_v3 (F := Ideal) (m ((c.tc : Thread Cert.KernelIdeal.nD Cert.KernelIdeal.τ).loc Cert.KernelIdeal.main_arg1)) (ix1 e)))
    (fun e => Gcn.rowOf (val_main_v6 (F := Ideal) (m ((c.tc : Thread Cert.KernelIdeal.nD Cert.KernelIdeal.τ).loc Cert.KernelIdeal.main_arg1)) (ix1 e)))
    (fun r j => r0 (ix2 r j)) (fun j k => r2 (ix2 j k)) (fun k => r3 (ix1 k)) (fun k => r4 (ix2 k (0 : Fin 1)))
    (fun r => dinv_real (m ((c.tc : Thread Cert.KernelIdeal.nD Cert.KernelIdeal.τ).loc Cert.KernelIdeal.main_arg1)) r)
    (fun e n h => Gcn.rowOf_of_toInt (val_main_v6 (F := Ideal) (m ((c.tc : Thread Cert.KernelIdeal.nD Cert.KernelIdeal.τ).loc Cert.KernelIdeal.main_arg1)) (ix1 e)) n h) n

/-- Both programs end with the same result, the kernel program's result buffer, and their arguments unchanged. -/
theorem algebraic : Cert.algebraic_KernelIdeal_ReferenceIdeal := by
  intro m ρ m' ρ' hpre hagree
  refine ⟨fun c => Cert.KernelIdeal.Gen.W7 m ρ c (Proc.devRef .tc Cert.KernelIdeal.main_v43),
    Cert.KernelIdeal.GenRun.run_result m ρ, ?_⟩
  refine (θ_run Cert.ReferenceIdeal.defs _ _).mono (fun r h c => ⟨(h c).1.trans ?_, (h c).2⟩)
    (Cert.ReferenceIdeal.ValueP.run (F := Ideal) m' ρ')
  exact result_eq m ρ m' hpre hagree c

end Cert.Proof.Claims

end
-- ==== Proof.lean ====
/- Two programs compute a two-layer graph convolution on 100000 nodes and 1700000 edges (the given edges and one self
   loop per node): a linear map, a sum over the edges landing on each node weighted by d^(-1/2) at both ends of the edge, a
   bias, a rectifier, a second linear map to one channel, the same weighted sum, a bias. The reference weights every
   message by the product of the two node weights before summing. The kernel program multiplies each node's features by its
   own weight inside a kernel, sums the plain rows on the host, and multiplies by the receiving node's weight inside the next
   kernel (or at the end): the receiving node's weight is constant over the sum, so it factors out, which on the extended
   reals is sound because every term is a real number under the precondition. The claims are proved in Proof/Bridge.lean
   over: the specification and the law (Proof/Spec.lean, Proof/SpecLaw.lean), the kernel program's value
   (Proof/Regions.lean, Proof/KernelHost.lean, Proof/KernelWalk.lean, Proof/KernelValue.lean over the run Proof/KernelRun.lean),
   the reference's value (Proof/RefValue.lean over Proof/RefRun.lean and Proof/RefRead.lean), the agreement of the edge
   words and node weights of the two programs (Proof/Agree.lean) and finiteness (Proof/Finite.lean). -/
import proofs.«126473_j7997229105851_1_alg».proof.Defs
import proofs.«126473_j7997229105851_1_alg».proof.Proof.Bridge
import proofs.«126473_j7997229105851_1_alg».proof.Proof.Gen.Kernel
import proofs.«126473_j7997229105851_1_alg».proof.Proof.Gen.KernelIdeal
import proofs.«126473_j7997229105851_1_alg».proof.Proof.Gen.ReferenceIdeal
import proofs.«126473_j7997229105851_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
